-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x256x101x256 : Shape := ⟨4, ![6, 256, 101, 256]⟩
abbrev S6x256x64 : Shape := ⟨3, ![6, 256, 64]⟩
abbrev S256x64x2 : Shape := ⟨3, ![256, 64, 2]⟩
abbrev S51x512 : Shape := ⟨2, ![51, 512]⟩
abbrev S51 : Shape := ⟨1, ![51]⟩
abbrev S_ : Shape := ⟨0, ![]⟩

class Facts : Prop where
  bcast_S_S6x256x101x256 : S_.BroadcastsInDim S6x256x101x256 (![] : Fin 0 → Fin S6x256x101x256.rank)
  reducesTo_S6x256x101x256_S_d0_1_2_3 : S6x256x101x256.ReducesTo [0, 1, 2, 3] S_
  h_S_ : 0 < S_.numel
  bcast_S_S51x512 : S_.BroadcastsInDim S51x512 (![] : Fin 0 → Fin S51x512.rank)
  reducesTo_S51x512_S_d0_1 : S51x512.ReducesTo [0, 1] S_
  bcast_S_S51 : S_.BroadcastsInDim S51 (![] : Fin 0 → Fin S51.rank)
  reducesTo_S51_S_d0 : S51.ReducesTo [0] S_
  bcast_S_S6x256x64 : S_.BroadcastsInDim S6x256x64 (![] : Fin 0 → Fin S6x256x64.rank)
  reducesTo_S6x256x64_S_d0_1_2 : S6x256x64.ReducesTo [0, 1, 2] S_
  bcast_S_S256x64x2 : S_.BroadcastsInDim S256x64x2 (![] : Fin 0 → Fin S256x64x2.rank)
  reducesTo_S256x64x2_S_d0_1_2 : S256x64x2.ReducesTo [0, 1, 2] S_

variable [Facts]

def fn_part1 {F : FTy → Type} [FloatOps F] (main_arg1 : IVec S6x256x64 32) (main_arg3 : IVec S256x64x2 32) (main_v13 : IVec S_ 1) (main_v15 : IVec S6x256x64 1) (main_c_5 : IVec S_ 32) : IVec S_ 1 :=
  let main_v16 : IVec S6x256x64 32 := broadcastInDim S6x256x64 ![] bcast_S_S6x256x64 main_c_5
  let main_v17 : IVec S6x256x64 1 := cmpi .slt main_arg1 main_v16
  let main_v18 : IVec S6x256x64 1 := andi main_v15 main_v17
  let main_c_6 : IVec S_ 1 := constantI S_ 1 1#1
  let main_v19 : IVec S_ 1 := (fun x v => Host.reduce IntOp.andi x v reducesTo_S6x256x64_S_d0_1_2 h_S_) main_v18 main_c_6
  let main_v20 : IVec S_ 1 := andi main_v13 main_v19
  let main_c_7 : IVec S_ 32 := constantI S_ 32 0#32
  let main_v21 : IVec S256x64x2 32 := broadcastInDim S256x64x2 ![] bcast_S_S256x64x2 main_c_7
  let main_v22 : IVec S256x64x2 1 := cmpi .sge main_arg3 main_v21
  let main_c_8 : IVec S_ 32 := constantI S_ 32 64#32
  let main_v23 : IVec S256x64x2 32 := broadcastInDim S256x64x2 ![] bcast_S_S256x64x2 main_c_8
  let main_v24 : IVec S256x64x2 1 := cmpi .slt main_arg3 main_v23
  let main_v25 : IVec S256x64x2 1 := andi main_v22 main_v24
  let main_c_9 : IVec S_ 1 := constantI S_ 1 1#1
  let main_v26 : IVec S_ 1 := (fun x v => Host.reduce IntOp.andi x v reducesTo_S256x64x2_S_d0_1_2 h_S_) main_v25 main_c_9
  let main_v27 : IVec S_ 1 := andi main_v20 main_v26
  main_v27

def fn {F : FTy → Type} [FloatOps F] (main_arg0 : FVec F S6x256x101x256 .f32) (main_arg1 : IVec S6x256x64 32) (main_arg2 : IVec S6x256x64 32) (main_arg3 : IVec S256x64x2 32) (main_arg4 : FVec F S51x512 .f32) (main_arg5 : FVec F S51 .f32) : IVec S_ 1 :=
  let main_v0 : FVec F S6x256x101x256 .f32 := Host.absf main_arg0
  let main_cst : FVec F S_ .f32 := constant S_ .f32 0x7F800000#32
  let main_v1 : FVec F S6x256x101x256 .f32 := broadcastInDim S6x256x101x256 ![] bcast_S_S6x256x101x256 main_cst
  let main_v2 : IVec S6x256x101x256 1 := cmpf .olt main_v0 main_v1
  let main_c : IVec S_ 1 := constantI S_ 1 1#1
  let main_v3 : IVec S_ 1 := (fun x v => Host.reduce IntOp.andi x v reducesTo_S6x256x101x256_S_d0_1_2_3 h_S_) main_v2 main_c
  let main_v4 : FVec F S51x512 .f32 := Host.absf main_arg4
  let main_cst_0 : FVec F S_ .f32 := constant S_ .f32 0x7F800000#32
  let main_v5 : FVec F S51x512 .f32 := broadcastInDim S51x512 ![] bcast_S_S51x512 main_cst_0
  let main_v6 : IVec S51x512 1 := cmpf .olt main_v4 main_v5
  let main_c_1 : IVec S_ 1 := constantI S_ 1 1#1
  let main_v7 : IVec S_ 1 := (fun x v => Host.reduce IntOp.andi x v reducesTo_S51x512_S_d0_1 h_S_) main_v6 main_c_1
  let main_v8 : IVec S_ 1 := andi main_v3 main_v7
  let main_v9 : FVec F S51 .f32 := Host.absf main_arg5
  let main_cst_2 : FVec F S_ .f32 := constant S_ .f32 0x7F800000#32
  let main_v10 : FVec F S51 .f32 := broadcastInDim S51 ![] bcast_S_S51 main_cst_2
  let main_v11 : IVec S51 1 := cmpf .olt main_v9 main_v10
  let main_c_3 : IVec S_ 1 := constantI S_ 1 1#1
  let main_v12 : IVec S_ 1 := (fun x v => Host.reduce IntOp.andi x v reducesTo_S51_S_d0 h_S_) main_v11 main_c_3
  let main_v13 : IVec S_ 1 := andi main_v8 main_v12
  let main_c_4 : IVec S_ 32 := constantI S_ 32 0#32
  let main_v14 : IVec S6x256x64 32 := broadcastInDim S6x256x64 ![] bcast_S_S6x256x64 main_c_4
  let main_v15 : IVec S6x256x64 1 := cmpi .sge main_arg1 main_v14
  let main_c_5 : IVec S_ 32 := constantI S_ 32 101#32
  fn_part1 (F := F) main_arg1 main_arg3 main_v13 main_v15 main_c_5
-- ==== Kernel.lean ====
abbrev S6x256x101x256 : Shape := ⟨4, ![6, 256, 101, 256]⟩
abbrev S6x256x64 : Shape := ⟨3, ![6, 256, 64]⟩
abbrev S256x64x2 : Shape := ⟨3, ![256, 64, 2]⟩
abbrev S51x512 : Shape := ⟨2, ![51, 512]⟩
abbrev S51 : Shape := ⟨1, ![51]⟩
abbrev S1536x64 : Shape := ⟨2, ![1536, 64]⟩
abbrev S1536 : Shape := ⟨1, ![1536]⟩
abbrev S1536x1 : Shape := ⟨2, ![1536, 1]⟩
abbrev S_ : Shape := ⟨0, ![]⟩
abbrev S64 : Shape := ⟨1, ![64]⟩
abbrev S1536x64x1 : Shape := ⟨3, ![1536, 64, 1]⟩
abbrev S1536x64x2 : Shape := ⟨3, ![1536, 64, 2]⟩
abbrev S256x64x1 : Shape := ⟨3, ![256, 64, 1]⟩
abbrev S256x64 : Shape := ⟨2, ![256, 64]⟩
abbrev S1x256x64 : Shape := ⟨3, ![1, 256, 64]⟩
abbrev S6x256x64x1 : Shape := ⟨4, ![6, 256, 64, 1]⟩
abbrev S1 : Shape := ⟨1, ![1]⟩
abbrev S1x1x1x1 : Shape := ⟨4, ![1, 1, 1, 1]⟩
abbrev S1536x101x256 : Shape := ⟨3, ![1536, 101, 256]⟩
abbrev S51x256 : Shape := ⟨2, ![51, 256]⟩
abbrev S1x51 : Shape := ⟨2, ![1, 51]⟩
abbrev S1536x64x51 : Shape := ⟨3, ![1536, 64, 51]⟩
abbrev S48x101x256 : Shape := ⟨3, ![48, 101, 256]⟩
abbrev S48x64 : Shape := ⟨2, ![48, 64]⟩
abbrev S48x64x51 : Shape := ⟨3, ![48, 64, 51]⟩
abbrev S48x64x101 : Shape := ⟨3, ![48, 64, 101]⟩
abbrev S48x64x1 : Shape := ⟨3, ![48, 64, 1]⟩
abbrev S48x128x101 : Shape := ⟨3, ![48, 128, 101]⟩
abbrev S48x128x256 : Shape := ⟨3, ![48, 128, 256]⟩
abbrev S48x64x256 : Shape := ⟨3, ![48, 64, 256]⟩
abbrev S3072x256 : Shape := ⟨2, ![3072, 256]⟩
abbrev S3072x51 : Shape := ⟨2, ![3072, 51]⟩
abbrev S6x256x64x51 : Shape := ⟨4, ![6, 256, 64, 51]⟩

abbrev nBuf : Space → Nat
  | .hbm => 153
  | .vmem => 11
  | .smem => 0
  | _ => 0

abbrev hbmTy0_0 (i : Nat) : BufTy := match i % 128 with
  | 0 => ⟨S6x256x101x256, .f32⟩
  | 1 => ⟨S6x256x64, .i32⟩
  | 2 => ⟨S6x256x64, .i32⟩
  | 3 => ⟨S256x64x2, .i32⟩
  | 4 => ⟨S51x512, .f32⟩
  | 5 => ⟨S51, .f32⟩
  | 6 => ⟨S1536x64, .i32⟩
  | 7 => ⟨S1536, .i32⟩
  | 8 => ⟨S1536x1, .i32⟩
  | 9 => ⟨S_, .i32⟩
  | 10 => ⟨S1536x64, .i32⟩
  | 11 => ⟨S64, .i32⟩
  | 12 => ⟨S1536x64, .i32⟩
  | 13 => ⟨S_, .i32⟩
  | 14 => ⟨S1536x1, .i32⟩
  | 15 => ⟨S1536x1, .i1⟩
  | 16 => ⟨S_, .i32⟩
  | 17 => ⟨S1536x1, .i32⟩
  | 18 => ⟨S1536x1, .i32⟩
  | 19 => ⟨S1536x1, .i32⟩
  | 20 => ⟨S_, .i32⟩
  | 21 => ⟨S1536x64, .i32⟩
  | 22 => ⟨S1536x64, .i1⟩
  | 23 => ⟨S_, .i32⟩
  | 24 => ⟨S1536x64, .i32⟩
  | 25 => ⟨S1536x64, .i32⟩
  | 26 => ⟨S1536x64, .i32⟩
  | 27 => ⟨S1536x64, .i32⟩
  | 28 => ⟨S1536x64x1, .i32⟩
  | 29 => ⟨S1536x64x1, .i32⟩
  | 30 => ⟨S1536x64x2, .i32⟩
  | 31 => ⟨S1536x64, .i32⟩
  | 32 => ⟨S6x256x64, .i32⟩
  | 33 => ⟨S256x64x1, .i32⟩
  | 34 => ⟨S256x64, .i32⟩
  | 35 => ⟨S256x64x1, .i32⟩
  | 36 => ⟨S256x64, .i32⟩
  | 37 => ⟨S1x256x64, .i32⟩
  | 38 => ⟨S6x256x64, .i32⟩
  | 39 => ⟨S_, .i32⟩
  | 40 => ⟨S6x256x64, .i32⟩
  | 41 => ⟨S6x256x64, .i1⟩
  | 42 => ⟨S_, .i32⟩
  | 43 => ⟨S6x256x64, .i32⟩
  | 44 => ⟨S6x256x64, .i32⟩
  | 45 => ⟨S6x256x64, .i32⟩
  | 46 => ⟨S6x256x64x1, .i32⟩
  | 47 => ⟨S1, .i32⟩
  | 48 => ⟨S_, .i32⟩
  | 49 => ⟨S6x256x64x1, .i32⟩
  | 50 => ⟨S6x256x64x1, .i1⟩
  | 51 => ⟨S1x1x1x1, .i32⟩
  | 52 => ⟨S6x256x64x1, .i32⟩
  | 53 => ⟨S6x256x64x1, .i1⟩
  | 54 => ⟨S6x256x64x1, .i1⟩
  | 55 => ⟨S_, .i1⟩
  | 56 => ⟨S6x256x64, .i1⟩
  | 57 => ⟨S6x256x64, .i32⟩
  | 58 => ⟨S_, .i32⟩
  | 59 => ⟨S6x256x64, .i32⟩
  | 60 => ⟨S6x256x64, .i32⟩
  | 61 => ⟨S_, .i32⟩
  | 62 => ⟨S6x256x64, .i32⟩
  | 63 => ⟨S6x256x64, .i1⟩
  | 64 => ⟨S_, .i32⟩
  | 65 => ⟨S6x256x64, .i32⟩
  | 66 => ⟨S6x256x64, .i32⟩
  | 67 => ⟨S6x256x64, .i32⟩
  | 68 => ⟨S6x256x64x1, .i32⟩
  | 69 => ⟨S1, .i32⟩
  | 70 => ⟨S_, .i32⟩
  | 71 => ⟨S6x256x64x1, .i32⟩
  | 72 => ⟨S6x256x64x1, .i1⟩
  | 73 => ⟨S1x1x1x1, .i32⟩
  | 74 => ⟨S6x256x64x1, .i32⟩
  | 75 => ⟨S6x256x64x1, .i1⟩
  | 76 => ⟨S6x256x64x1, .i1⟩
  | 77 => ⟨S_, .i1⟩
  | 78 => ⟨S6x256x64, .i1⟩
  | 79 => ⟨S6x256x64, .i32⟩
  | 80 => ⟨S_, .i32⟩
  | 81 => ⟨S6x256x64, .i32⟩
  | 82 => ⟨S6x256x64, .i32⟩
  | 83 => ⟨S_, .i32⟩
  | 84 => ⟨S_, .i32⟩
  | 85 => ⟨S_, .i32⟩
  | 86 => ⟨S6x256x64, .i32⟩
  | 87 => ⟨S6x256x64, .i32⟩
  | 88 => ⟨S_, .i32⟩
  | 89 => ⟨S6x256x64, .i32⟩
  | 90 => ⟨S6x256x64, .i32⟩
  | 91 => ⟨S1536x64, .i32⟩
  | 92 => ⟨S1x256x64, .i32⟩
  | 93 => ⟨S6x256x64, .i32⟩
  | 94 => ⟨S_, .i32⟩
  | 95 => ⟨S6x256x64, .i32⟩
  | 96 => ⟨S6x256x64, .i1⟩
  | 97 => ⟨S_, .i32⟩
  | 98 => ⟨S6x256x64, .i32⟩
  | 99 => ⟨S6x256x64, .i32⟩
  | 100 => ⟨S6x256x64, .i32⟩
  | 101 => ⟨S6x256x64x1, .i32⟩
  | 102 => ⟨S1, .i32⟩
  | 103 => ⟨S_, .i32⟩
  | 104 => ⟨S6x256x64x1, .i32⟩
  | 105 => ⟨S6x256x64x1, .i1⟩
  | 106 => ⟨S1x1x1x1, .i32⟩
  | 107 => ⟨S6x256x64x1, .i32⟩
  | 108 => ⟨S6x256x64x1, .i1⟩
  | 109 => ⟨S6x256x64x1, .i1⟩
  | 110 => ⟨S_, .i1⟩
  | 111 => ⟨S6x256x64, .i1⟩
  | 112 => ⟨S6x256x64, .i32⟩
  | 113 => ⟨S_, .i32⟩
  | 114 => ⟨S6x256x64, .i32⟩
  | 115 => ⟨S6x256x64, .i32⟩
  | 116 => ⟨S_, .i32⟩
  | 117 => ⟨S6x256x64, .i32⟩
  | 118 => ⟨S6x256x64, .i1⟩
  | 119 => ⟨S_, .i32⟩
  | 120 => ⟨S6x256x64, .i32⟩
  | 121 => ⟨S6x256x64, .i32⟩
  | 122 => ⟨S6x256x64, .i32⟩
  | 123 => ⟨S6x256x64x1, .i32⟩
  | 124 => ⟨S1, .i32⟩
  | 125 => ⟨S_, .i32⟩
  | 126 => ⟨S6x256x64x1, .i32⟩
  | 127 => ⟨S6x256x64x1, .i1⟩
  | _ => ⟨S6x256x101x256, .f32⟩

abbrev hbmTy0_1 (i : Nat) : BufTy := match i % 128 with
  | 0 => ⟨S1x1x1x1, .i32⟩
  | 1 => ⟨S6x256x64x1, .i32⟩
  | 2 => ⟨S6x256x64x1, .i1⟩
  | 3 => ⟨S6x256x64x1, .i1⟩
  | 4 => ⟨S_, .i1⟩
  | 5 => ⟨S6x256x64, .i1⟩
  | 6 => ⟨S6x256x64, .i32⟩
  | 7 => ⟨S_, .i32⟩
  | 8 => ⟨S6x256x64, .i32⟩
  | 9 => ⟨S6x256x64, .i32⟩
  | 10 => ⟨S_, .i32⟩
  | 11 => ⟨S_, .i32⟩
  | 12 => ⟨S_, .i32⟩
  | 13 => ⟨S6x256x64, .i32⟩
  | 14 => ⟨S6x256x64, .i32⟩
  | 15 => ⟨S_, .i32⟩
  | 16 => ⟨S6x256x64, .i32⟩
  | 17 => ⟨S6x256x64, .i32⟩
  | 18 => ⟨S1536x64, .i32⟩
  | 19 => ⟨S1536x101x256, .f32⟩
  | 20 => ⟨S51x256, .f32⟩
  | 21 => ⟨S51x256, .f32⟩
  | 22 => ⟨S1x51, .f32⟩
  | 23 => ⟨S1536x64x51, .f32⟩
  | 24 => ⟨S6x256x64x51, .f32⟩
  | _ => ⟨S6x256x101x256, .f32⟩

abbrev hbmTy (i : Nat) : BufTy := match i / 128 with
  | 0 => hbmTy0_0 i
  | 1 => hbmTy0_1 i
  | _ => ⟨S6x256x101x256, .f32⟩

abbrev bufTy : (tb : Table) → Fin (tcTables nBuf tb) → BufTy
  | .hbm, ⟨i, _⟩ => hbmTy i
  | .local _ .vmem, ⟨0, _⟩ => ⟨S48x101x256, .f32⟩
  | .local _ .vmem, ⟨1, _⟩ => ⟨S48x101x256, .f32⟩
  | .local _ .vmem, ⟨2, _⟩ => ⟨S48x64, .i32⟩
  | .local _ .vmem, ⟨3, _⟩ => ⟨S48x64, .i32⟩
  | .local _ .vmem, ⟨4, _⟩ => ⟨S48x64, .i32⟩
  | .local _ .vmem, ⟨5, _⟩ => ⟨S48x64, .i32⟩
  | .local _ .vmem, ⟨6, _⟩ => ⟨S51x256, .f32⟩
  | .local _ .vmem, ⟨7, _⟩ => ⟨S51x256, .f32⟩
  | .local _ .vmem, ⟨8, _⟩ => ⟨S1x51, .f32⟩
  | .local _ .vmem, ⟨9, _⟩ => ⟨S48x64x51, .f32⟩
  | .local _ .vmem, ⟨10, _⟩ => ⟨S48x64x51, .f32⟩
  | _, _ => ⟨S6x256x101x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_c_4 : Ref sig .tc := ⟨.hbm, 58, rfl⟩
abbrev main_call0_v14 : Ref sig .tc := ⟨.hbm, 59, rfl⟩
abbrev main_v28 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_c_4 : Ref sig .tc := ⟨.hbm, 80, rfl⟩
abbrev main_call1_v14 : Ref sig .tc := ⟨.hbm, 81, rfl⟩
abbrev main_v29 : Ref sig .tc := ⟨.hbm, 82, rfl⟩
abbrev main_c_4 : Ref sig .tc := ⟨.hbm, 83, rfl⟩
abbrev main_c_5 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_c_4 : Ref sig .tc := ⟨.hbm, 113, rfl⟩
abbrev main_call3_v14 : Ref sig .tc := ⟨.hbm, 114, rfl⟩
abbrev main_v34 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_c_4 : Ref sig .tc := ⟨.hbm, 135, rfl⟩
abbrev main_call4_v14 : Ref sig .tc := ⟨.hbm, 136, rfl⟩
abbrev main_v35 : Ref sig .tc := ⟨.hbm, 137, rfl⟩
abbrev main_c_6 : Ref sig .tc := ⟨.hbm, 138, rfl⟩
abbrev main_c_7 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_v36 : Ref sig .tc := ⟨.hbm, 145, rfl⟩
abbrev main_v37 : Ref sig .tc := ⟨.hbm, 146, rfl⟩
abbrev main_v38 : Ref sig .tc := ⟨.hbm, 147, rfl⟩
abbrev main_v39 : Ref sig .tc := ⟨.hbm, 148, rfl⟩
abbrev main_v40 : Ref sig .tc := ⟨.hbm, 149, rfl⟩
abbrev main_v41 : Ref sig .tc := ⟨.hbm, 150, rfl⟩
abbrev main_v42 : Ref sig .tc := ⟨.hbm, 151, rfl⟩
abbrev main_v43 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S48x101x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S48x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S48x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S51x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S51x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x51 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S48x64x51 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S6x256x64_S1536x64 : S6x256x64.ShapeCasts S1536x64
  bcast_S1536_S1536x1_0 : S1536.BroadcastsInDim S1536x1 (![0] : Fin 1 → Fin S1536x1.rank)
  bcast_S_S1536x64 : S_.BroadcastsInDim S1536x64 (![] : Fin 0 → Fin S1536x64.rank)
  bcast_S64_S1536x64_1 : S64.BroadcastsInDim S1536x64 (![1] : Fin 1 → Fin S1536x64.rank)
  bcast_S_S1536x1 : S_.BroadcastsInDim S1536x1 (![] : Fin 0 → Fin S1536x1.rank)
  bcast_S1536x1_S1536x64_0_1 : S1536x1.BroadcastsInDim S1536x64 (![0, 1] : Fin 2 → Fin S1536x64.rank)
  bcast_S1536x64_S1536x64x1_0_1 : S1536x64.BroadcastsInDim S1536x64x1 (![0, 1] : Fin 2 → Fin S1536x64x1.rank)
  concatenates_S1536x64x1_S1536x64x1_S1536x64x2_d2 : Shape.Concatenates [S1536x64x1, S1536x64x1] S1536x64x2 2
  shapeCasts_S1536x64_S6x256x64 : S1536x64.ShapeCasts S6x256x64
  slices_S256x64x2_S256x64x1_0_0_0 : S256x64x2.Slices ![0, 0, 0] S256x64x1
  shapeCasts_S256x64x1_S256x64 : S256x64x1.ShapeCasts S256x64
  slices_S256x64x2_S256x64x1_0_0_1 : S256x64x2.Slices ![0, 0, 1] S256x64x1
  bcast_S256x64_S1x256x64_1_2 : S256x64.BroadcastsInDim S1x256x64 (![1, 2] : Fin 2 → Fin S1x256x64.rank)
  bcast_S1x256x64_S6x256x64_0_1_2 : S1x256x64.BroadcastsInDim S6x256x64 (![0, 1, 2] : Fin 3 → Fin S6x256x64.rank)
  bcast_S_S6x256x64 : S_.BroadcastsInDim S6x256x64 (![] : Fin 0 → Fin S6x256x64.rank)
  shapeCasts_S6x256x64_S6x256x64x1 : S6x256x64.ShapeCasts S6x256x64x1
  bcast_S_S6x256x64x1 : S_.BroadcastsInDim S6x256x64x1 (![] : Fin 0 → Fin S6x256x64x1.rank)
  bcast_S1_S1x1x1x1_3 : S1.BroadcastsInDim S1x1x1x1 (![3] : Fin 1 → Fin S1x1x1x1.rank)
  bcast_S1x1x1x1_S6x256x64x1_0_1_2_3 : S1x1x1x1.BroadcastsInDim S6x256x64x1 (![0, 1, 2, 3] : Fin 4 → Fin S6x256x64x1.rank)
  reducesTo_S6x256x64x1_S6x256x64_d3 : S6x256x64x1.ReducesTo [3] S6x256x64
  h_S_ : 0 < S_.numel
  shapeCasts_S6x256x101x256_S1536x101x256 : S6x256x101x256.ShapeCasts S1536x101x256
  slices_S51x512_S51x256_0_0 : S51x512.Slices ![0, 0] S51x256
  slices_S51x512_S51x256_0_256 : S51x512.Slices ![0, 256] S51x256
  shapeCasts_S51_S1x51 : S51.ShapeCasts S1x51
  inb_S48x101x256_S48x101x256_0_0_0 : ∀ a, (![0, 0, 0] : Fin 3 → Nat) a + S48x101x256.size a ≤ S48x101x256.size a
  h_S48x101x256 : 0 < S48x101x256.numel
  shapeCasts_S48x101x256_S48x101x256 : S48x101x256.ShapeCasts S48x101x256
  bitsLt_bf16_f32 : FTy.bits .bf16 < FTy.bits .f32
  inb_S48x64_S48x64_0_0 : ∀ a, (![0, 0] : Fin 2 → Nat) a + S48x64.size a ≤ S48x64.size a
  h_S48x64 : 0 < S48x64.numel
  shapeCasts_S48x64_S48x64 : S48x64.ShapeCasts S48x64
  iota_S48x64x101_d2_w32 : S48x64x101.Iotas .tc 32 [2]
  shapeCasts_S48x64_S48x64x1 : S48x64.ShapeCasts S48x64x1
  broadcasts_S48x64x1_S48x64x101 : S48x64x1.Broadcasts S48x64x101
  natLt_1_32 : 1 < 32
  concatenates_S48x64x101_S48x64x101_S48x128x101_d1 : Shape.Concatenates [S48x64x101, S48x64x101] S48x128x101 1
  slices_S48x128x256_o0_0_0_S48x64x256 : S48x128x256.Slices ![0, 0, 0] S48x64x256
  slices_S48x128x256_o0_64_0_S48x64x256 : S48x128x256.Slices ![0, 64, 0] S48x64x256
  shapeCasts_S48x64x256_S3072x256 : S48x64x256.ShapeCasts S3072x256
  inb_S51x256_S51x256_0_0 : ∀ a, (![0, 0] : Fin 2 → Nat) a + S51x256.size a ≤ S51x256.size a
  h_S51x256 : 0 < S51x256.numel
  shapeCasts_S51x256_S51x256 : S51x256.ShapeCasts S51x256
  inb_S1x51_S1x51_0_0 : ∀ a, (![0, 0] : Fin 2 → Nat) a + S1x51.size a ≤ S1x51.size a
  h_S1x51 : 0 < S1x51.numel
  shapeCasts_S1x51_S1x51 : S1x51.ShapeCasts S1x51
  broadcasts_S1x51_S3072x51 : S1x51.Broadcasts S3072x51
  shapeCasts_S3072x51_S48x64x51 : S3072x51.ShapeCasts S48x64x51
  inb_S48x64x51_S48x64x51_0_0_0 : ∀ a, (![0, 0, 0] : Fin 3 → Nat) a + S48x64x51.size a ≤ S48x64x51.size a
  h_S48x64x51 : 0 < S48x64x51.numel
  shapeCasts_S1536x64x51_S6x256x64x51 : S1536x64x51.ShapeCasts S6x256x64x51
  scatter_S1536x64_S1536x64x2_S1536x64_n_01_01_2_wf : ScatterDims.WF S1536x64 S1536x64x2 S1536x64 [] [0, 1] [0, 1] 2
  gather_S6x256x64_S6x256x64x1_S6x256x64_n_2_01_01_2_3_111_wf : GatherDims.WF S6x256x64 S6x256x64x1 S6x256x64 [] [2] [0, 1] [2] [0, 1] 3 ![1, 1, 1]
  dot_S48x128x101_S48x101x256_S48x128x256_2_1_1_2_0_0_wf : DotDims.WF S48x128x101 S48x101x256 S48x128x256 [2] [1] [1] [2] [0] [0]
  dot_S3072x256_S51x256_S3072x51_1_1_0_0_n_n_wf : DotDims.WF S3072x256 S51x256 S3072x51 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S48x101x256.size a ≤ S1536x101x256.size a
  hwx0_0 : ∀ i : grid0.Coords, EltTy.bits .f32 = 32 ∨ (Rect.block (s := S1536x101x256) S48x101x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S48x64.size a ≤ S1536x64.size a
  hwx0_1 : ∀ i : grid0.Coords, EltTy.bits .i32 = 32 ∨ (Rect.block (s := S1536x64) S48x64.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S48x64.size a ≤ S1536x64.size a
  hwx0_2 : ∀ i : grid0.Coords, EltTy.bits .i32 = 32 ∨ (Rect.block (s := S1536x64) S48x64.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S51x256.size a ≤ S51x256.size a
  hwx0_3 : ∀ i : grid0.Coords, EltTy.bits .f32 = 32 ∨ (Rect.block (s := S51x256) S51x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S51x256.size a ≤ S51x256.size a
  hwx0_4 : ∀ i : grid0.Coords, EltTy.bits .f32 = 32 ∨ (Rect.block (s := S51x256) S51x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x51.size a ≤ S1x51.size a
  hwx0_5 : ∀ i : grid0.Coords, EltTy.bits .f32 = 32 ∨ (Rect.block (s := S1x51) S1x51.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S48x64x51.size a ≤ S1536x64x51.size a
  hwx0_6 : ∀ i : grid0.Coords, EltTy.bits .f32 = 32 ∨ (Rect.block (s := S1536x64x51) S48x64x51.size (cc0_transform_6 i) (hinb0_6 i)).WholeWords (EltTy.packing .f32)

variable [Facts₀]

def scatter_S1536x64_S1536x64x2_S1536x64_n_01_01_2 : ScatterDims S1536x64 S1536x64x2 S1536x64 where
  updateWindowDims := []
  insertedWindowDims := [0, 1]
  scatterDimsToOperandDims := [0, 1]
  indexVectorDim := 2
  wf := scatter_S1536x64_S1536x64x2_S1536x64_n_01_01_2_wf
def gather_S6x256x64_S6x256x64x1_S6x256x64_n_2_01_01_2_3_111 : GatherDims S6x256x64 S6x256x64x1 S6x256x64 where
  offsetDims := []
  collapsedSliceDims := [2]
  operandBatchingDims := [0, 1]
  startIndicesBatchingDims := [0, 1]
  startIndexMap := [2]
  indexVectorDim := 3
  sliceSizes := ![1, 1, 1]
  wf := gather_S6x256x64_S6x256x64x1_S6x256x64_n_2_01_01_2_3_111_wf
def dot_S48x128x101_S48x101x256_S48x128x256_2_1_1_2_0_0 : DotDims S48x128x101 S48x101x256 S48x128x256 where
  lhsContracting := [2]
  rhsContracting := [1]
  lhsNonContracting := [1]
  rhsNonContracting := [2]
  lhsBatch := [0]
  rhsBatch := [0]
  wf := dot_S48x128x101_S48x101x256_S48x128x256_2_1_1_2_0_0_wf
def dot_S3072x256_S51x256_S3072x51_1_1_0_0_n_n : DotDims S3072x256 S51x256 S3072x51 where
  lhsContracting := [1]
  rhsContracting := [1]
  lhsNonContracting := [0]
  rhsNonContracting := [0]
  lhsBatch := []
  rhsBatch := []
  wf := dot_S3072x256_S51x256_S3072x51_1_1_0_0_n_n_wf

abbrev win0_0 : Pipeline.Window sig grid0 :=
  Pipeline.Window.ofSpec (Memref.whole main_v38) S48x101x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S48x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S48x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S51x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S51x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S1x51.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S48x64x51.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S6x256x101x256 : Shape := ⟨4, ![6, 256, 101, 256]⟩
abbrev S6x256x64 : Shape := ⟨3, ![6, 256, 64]⟩
abbrev S256x64x2 : Shape := ⟨3, ![256, 64, 2]⟩
abbrev S51x512 : Shape := ⟨2, ![51, 512]⟩
abbrev S51 : Shape := ⟨1, ![51]⟩
abbrev S1536x64 : Shape := ⟨2, ![1536, 64]⟩
abbrev S1536 : Shape := ⟨1, ![1536]⟩
abbrev S1536x1 : Shape := ⟨2, ![1536, 1]⟩
abbrev S_ : Shape := ⟨0, ![]⟩
abbrev S64 : Shape := ⟨1, ![64]⟩
abbrev S1536x64x1 : Shape := ⟨3, ![1536, 64, 1]⟩
abbrev S1536x64x2 : Shape := ⟨3, ![1536, 64, 2]⟩
abbrev S256x64x1 : Shape := ⟨3, ![256, 64, 1]⟩
abbrev S256x64 : Shape := ⟨2, ![256, 64]⟩
abbrev S1x256x64 : Shape := ⟨3, ![1, 256, 64]⟩
abbrev S6x256x64x1 : Shape := ⟨4, ![6, 256, 64, 1]⟩
abbrev S1 : Shape := ⟨1, ![1]⟩
abbrev S1x1x1x1 : Shape := ⟨4, ![1, 1, 1, 1]⟩
abbrev S6x256x64x256 : Shape := ⟨4, ![6, 256, 64, 256]⟩
abbrev S6x256x64x512 : Shape := ⟨4, ![6, 256, 64, 512]⟩
abbrev S6x256x64x51 : Shape := ⟨4, ![6, 256, 64, 51]⟩
abbrev S1x1x1x51 : Shape := ⟨4, ![1, 1, 1, 51]⟩

abbrev nBuf : Space → Nat
  | .hbm => 180
  | .vmem => 0
  | .smem => 0
  | _ => 0

abbrev hbmTy0_0 (i : Nat) : BufTy := match i % 128 with
  | 0 => ⟨S6x256x101x256, .f32⟩
  | 1 => ⟨S6x256x64, .i32⟩
  | 2 => ⟨S6x256x64, .i32⟩
  | 3 => ⟨S256x64x2, .i32⟩
  | 4 => ⟨S51x512, .f32⟩
  | 5 => ⟨S51, .f32⟩
  | 6 => ⟨S1536x64, .i32⟩
  | 7 => ⟨S1536, .i32⟩
  | 8 => ⟨S1536x1, .i32⟩
  | 9 => ⟨S_, .i32⟩
  | 10 => ⟨S1536x64, .i32⟩
  | 11 => ⟨S64, .i32⟩
  | 12 => ⟨S1536x64, .i32⟩
  | 13 => ⟨S_, .i32⟩
  | 14 => ⟨S1536x1, .i32⟩
  | 15 => ⟨S1536x1, .i1⟩
  | 16 => ⟨S_, .i32⟩
  | 17 => ⟨S1536x1, .i32⟩
  | 18 => ⟨S1536x1, .i32⟩
  | 19 => ⟨S1536x1, .i32⟩
  | 20 => ⟨S_, .i32⟩
  | 21 => ⟨S1536x64, .i32⟩
  | 22 => ⟨S1536x64, .i1⟩
  | 23 => ⟨S_, .i32⟩
  | 24 => ⟨S1536x64, .i32⟩
  | 25 => ⟨S1536x64, .i32⟩
  | 26 => ⟨S1536x64, .i32⟩
  | 27 => ⟨S1536x64, .i32⟩
  | 28 => ⟨S1536x64x1, .i32⟩
  | 29 => ⟨S1536x64x1, .i32⟩
  | 30 => ⟨S1536x64x2, .i32⟩
  | 31 => ⟨S1536x64, .i32⟩
  | 32 => ⟨S6x256x64, .i32⟩
  | 33 => ⟨S256x64x1, .i32⟩
  | 34 => ⟨S256x64, .i32⟩
  | 35 => ⟨S256x64x1, .i32⟩
  | 36 => ⟨S256x64, .i32⟩
  | 37 => ⟨S1x256x64, .i32⟩
  | 38 => ⟨S6x256x64, .i32⟩
  | 39 => ⟨S_, .i32⟩
  | 40 => ⟨S6x256x64, .i32⟩
  | 41 => ⟨S6x256x64, .i1⟩
  | 42 => ⟨S_, .i32⟩
  | 43 => ⟨S6x256x64, .i32⟩
  | 44 => ⟨S6x256x64, .i32⟩
  | 45 => ⟨S6x256x64, .i32⟩
  | 46 => ⟨S6x256x64x1, .i32⟩
  | 47 => ⟨S1, .i32⟩
  | 48 => ⟨S_, .i32⟩
  | 49 => ⟨S6x256x64x1, .i32⟩
  | 50 => ⟨S6x256x64x1, .i1⟩
  | 51 => ⟨S1x1x1x1, .i32⟩
  | 52 => ⟨S6x256x64x1, .i32⟩
  | 53 => ⟨S6x256x64x1, .i1⟩
  | 54 => ⟨S6x256x64x1, .i1⟩
  | 55 => ⟨S_, .i1⟩
  | 56 => ⟨S6x256x64, .i1⟩
  | 57 => ⟨S6x256x64, .i32⟩
  | 58 => ⟨S_, .i32⟩
  | 59 => ⟨S6x256x64, .i32⟩
  | 60 => ⟨S6x256x64, .i32⟩
  | 61 => ⟨S_, .i32⟩
  | 62 => ⟨S6x256x64, .i32⟩
  | 63 => ⟨S6x256x64, .i1⟩
  | 64 => ⟨S_, .i32⟩
  | 65 => ⟨S6x256x64, .i32⟩
  | 66 => ⟨S6x256x64, .i32⟩
  | 67 => ⟨S6x256x64, .i32⟩
  | 68 => ⟨S6x256x64x1, .i32⟩
  | 69 => ⟨S1, .i32⟩
  | 70 => ⟨S_, .i32⟩
  | 71 => ⟨S6x256x64x1, .i32⟩
  | 72 => ⟨S6x256x64x1, .i1⟩
  | 73 => ⟨S1x1x1x1, .i32⟩
  | 74 => ⟨S6x256x64x1, .i32⟩
  | 75 => ⟨S6x256x64x1, .i1⟩
  | 76 => ⟨S6x256x64x1, .i1⟩
  | 77 => ⟨S_, .i1⟩
  | 78 => ⟨S6x256x64, .i1⟩
  | 79 => ⟨S6x256x64, .i32⟩
  | 80 => ⟨S_, .i32⟩
  | 81 => ⟨S6x256x64, .i32⟩
  | 82 => ⟨S6x256x64, .i32⟩
  | 83 => ⟨S6x256x64x1, .i32⟩
  | 84 => ⟨S_, .i32⟩
  | 85 => ⟨S6x256x64x1, .i32⟩
  | 86 => ⟨S6x256x64x1, .i1⟩
  | 87 => ⟨S_, .i32⟩
  | 88 => ⟨S6x256x64x1, .i32⟩
  | 89 => ⟨S6x256x64x1, .i32⟩
  | 90 => ⟨S6x256x64x1, .i32⟩
  | 91 => ⟨S1, .i32⟩
  | 92 => ⟨S_, .i32⟩
  | 93 => ⟨S6x256x64x1, .i32⟩
  | 94 => ⟨S6x256x64x1, .i1⟩
  | 95 => ⟨S1x1x1x1, .i32⟩
  | 96 => ⟨S6x256x64x1, .i32⟩
  | 97 => ⟨S6x256x64x1, .i1⟩
  | 98 => ⟨S6x256x64x1, .i1⟩
  | 99 => ⟨S_, .i1⟩
  | 100 => ⟨S6x256x64, .i1⟩
  | 101 => ⟨S6x256x64x256, .f32⟩
  | 102 => ⟨S6x256x64x256, .i1⟩
  | 103 => ⟨S_, .f32⟩
  | 104 => ⟨S6x256x64x256, .f32⟩
  | 105 => ⟨S6x256x64x256, .f32⟩
  | 106 => ⟨S1x256x64, .i32⟩
  | 107 => ⟨S6x256x64, .i32⟩
  | 108 => ⟨S_, .i32⟩
  | 109 => ⟨S6x256x64, .i32⟩
  | 110 => ⟨S6x256x64, .i1⟩
  | 111 => ⟨S_, .i32⟩
  | 112 => ⟨S6x256x64, .i32⟩
  | 113 => ⟨S6x256x64, .i32⟩
  | 114 => ⟨S6x256x64, .i32⟩
  | 115 => ⟨S6x256x64x1, .i32⟩
  | 116 => ⟨S1, .i32⟩
  | 117 => ⟨S_, .i32⟩
  | 118 => ⟨S6x256x64x1, .i32⟩
  | 119 => ⟨S6x256x64x1, .i1⟩
  | 120 => ⟨S1x1x1x1, .i32⟩
  | 121 => ⟨S6x256x64x1, .i32⟩
  | 122 => ⟨S6x256x64x1, .i1⟩
  | 123 => ⟨S6x256x64x1, .i1⟩
  | 124 => ⟨S_, .i1⟩
  | 125 => ⟨S6x256x64, .i1⟩
  | 126 => ⟨S6x256x64, .i32⟩
  | 127 => ⟨S_, .i32⟩
  | _ => ⟨S6x256x101x256, .f32⟩

abbrev hbmTy0_1 (i : Nat) : BufTy := match i % 128 with
  | 0 => ⟨S6x256x64, .i32⟩
  | 1 => ⟨S6x256x64, .i32⟩
  | 2 => ⟨S_, .i32⟩
  | 3 => ⟨S6x256x64, .i32⟩
  | 4 => ⟨S6x256x64, .i1⟩
  | 5 => ⟨S_, .i32⟩
  | 6 => ⟨S6x256x64, .i32⟩
  | 7 => ⟨S6x256x64, .i32⟩
  | 8 => ⟨S6x256x64, .i32⟩
  | 9 => ⟨S6x256x64x1, .i32⟩
  | 10 => ⟨S1, .i32⟩
  | 11 => ⟨S_, .i32⟩
  | 12 => ⟨S6x256x64x1, .i32⟩
  | 13 => ⟨S6x256x64x1, .i1⟩
  | 14 => ⟨S1x1x1x1, .i32⟩
  | 15 => ⟨S6x256x64x1, .i32⟩
  | 16 => ⟨S6x256x64x1, .i1⟩
  | 17 => ⟨S6x256x64x1, .i1⟩
  | 18 => ⟨S_, .i1⟩
  | 19 => ⟨S6x256x64, .i1⟩
  | 20 => ⟨S6x256x64, .i32⟩
  | 21 => ⟨S_, .i32⟩
  | 22 => ⟨S6x256x64, .i32⟩
  | 23 => ⟨S6x256x64, .i32⟩
  | 24 => ⟨S6x256x64x1, .i32⟩
  | 25 => ⟨S_, .i32⟩
  | 26 => ⟨S6x256x64x1, .i32⟩
  | 27 => ⟨S6x256x64x1, .i1⟩
  | 28 => ⟨S_, .i32⟩
  | 29 => ⟨S6x256x64x1, .i32⟩
  | 30 => ⟨S6x256x64x1, .i32⟩
  | 31 => ⟨S6x256x64x1, .i32⟩
  | 32 => ⟨S1, .i32⟩
  | 33 => ⟨S_, .i32⟩
  | 34 => ⟨S6x256x64x1, .i32⟩
  | 35 => ⟨S6x256x64x1, .i1⟩
  | 36 => ⟨S1x1x1x1, .i32⟩
  | 37 => ⟨S6x256x64x1, .i32⟩
  | 38 => ⟨S6x256x64x1, .i1⟩
  | 39 => ⟨S6x256x64x1, .i1⟩
  | 40 => ⟨S_, .i1⟩
  | 41 => ⟨S6x256x64, .i1⟩
  | 42 => ⟨S6x256x64x256, .f32⟩
  | 43 => ⟨S6x256x64x256, .i1⟩
  | 44 => ⟨S_, .f32⟩
  | 45 => ⟨S6x256x64x256, .f32⟩
  | 46 => ⟨S6x256x64x256, .f32⟩
  | 47 => ⟨S6x256x64x512, .f32⟩
  | 48 => ⟨S6x256x64x51, .f32⟩
  | 49 => ⟨S1x1x1x51, .f32⟩
  | 50 => ⟨S6x256x64x51, .f32⟩
  | 51 => ⟨S6x256x64x51, .f32⟩
  | _ => ⟨S6x256x101x256, .f32⟩

abbrev hbmTy (i : Nat) : BufTy := match i / 128 with
  | 0 => hbmTy0_0 i
  | 1 => hbmTy0_1 i
  | _ => ⟨S6x256x101x256, .f32⟩

abbrev bufTy : (tb : Table) → Fin (tcTables nBuf tb) → BufTy
  | .hbm, ⟨i, _⟩ => hbmTy i
  | _, _ => ⟨S6x256x101x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_c_4 : Ref sig .tc := ⟨.hbm, 58, rfl⟩
abbrev main_call0_v14 : Ref sig .tc := ⟨.hbm, 59, rfl⟩
abbrev main_v28 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_c_4 : Ref sig .tc := ⟨.hbm, 80, rfl⟩
abbrev main_call1_v14 : Ref sig .tc := ⟨.hbm, 81, rfl⟩
abbrev main_v29 : Ref sig .tc := ⟨.hbm, 82, rfl⟩
abbrev main_v30 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_c_1 : Ref sig .tc := ⟨.hbm, 91, rfl⟩
abbrev main_call2_c_2 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_c_3 : Ref sig .tc := ⟨.hbm, 99, rfl⟩
abbrev main_call2_v11 : Ref sig .tc := ⟨.hbm, 100, rfl⟩
abbrev main_call2_v12 : Ref sig .tc := ⟨.hbm, 101, rfl⟩
abbrev main_call2_v13 : Ref sig .tc := ⟨.hbm, 102, rfl⟩
abbrev main_call2_cst : Ref sig .tc := ⟨.hbm, 103, rfl⟩
abbrev main_call2_v14 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_call3_c : Ref sig .tc := ⟨.hbm, 108, rfl⟩
abbrev main_call3_v0 : Ref sig .tc := ⟨.hbm, 109, rfl⟩
abbrev main_call3_v1 : Ref sig .tc := ⟨.hbm, 110, rfl⟩
abbrev main_call3_c_0 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_c_1 : Ref sig .tc := ⟨.hbm, 116, rfl⟩
abbrev main_call3_c_2 : Ref sig .tc := ⟨.hbm, 117, rfl⟩
abbrev main_call3_v6 : Ref sig .tc := ⟨.hbm, 118, rfl⟩
abbrev main_call3_v7 : Ref sig .tc := ⟨.hbm, 119, rfl⟩
abbrev main_call3_v8 : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_c_3 : Ref sig .tc := ⟨.hbm, 124, rfl⟩
abbrev main_call3_v12 : Ref sig .tc := ⟨.hbm, 125, rfl⟩
abbrev main_call3_v13 : Ref sig .tc := ⟨.hbm, 126, rfl⟩
abbrev main_call3_c_4 : Ref sig .tc := ⟨.hbm, 127, rfl⟩
abbrev main_call3_v14 : Ref sig .tc := ⟨.hbm, 128, rfl⟩
abbrev main_v34 : Ref sig .tc := ⟨.hbm, 129, rfl⟩
abbrev main_call4_c : Ref sig .tc := ⟨.hbm, 130, rfl⟩
abbrev main_call4_v0 : Ref sig .tc := ⟨.hbm, 131, rfl⟩
abbrev main_call4_v1 : Ref sig .tc := ⟨.hbm, 132, rfl⟩
abbrev main_call4_c_0 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_call4_v5 : Ref sig .tc := ⟨.hbm, 137, rfl⟩
abbrev main_call4_c_1 : Ref sig .tc := ⟨.hbm, 138, rfl⟩
abbrev main_call4_c_2 : Ref sig .tc := ⟨.hbm, 139, rfl⟩
abbrev main_call4_v6 : Ref sig .tc := ⟨.hbm, 140, rfl⟩
abbrev main_call4_v7 : Ref sig .tc := ⟨.hbm, 141, rfl⟩
abbrev main_call4_v8 : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_call4_c_3 : Ref sig .tc := ⟨.hbm, 146, rfl⟩
abbrev main_call4_v12 : Ref sig .tc := ⟨.hbm, 147, rfl⟩
abbrev main_call4_v13 : Ref sig .tc := ⟨.hbm, 148, rfl⟩
abbrev main_call4_c_4 : Ref sig .tc := ⟨.hbm, 149, rfl⟩
abbrev main_call4_v14 : Ref sig .tc := ⟨.hbm, 150, rfl⟩
abbrev main_v35 : Ref sig .tc := ⟨.hbm, 151, rfl⟩
abbrev main_v36 : Ref sig .tc := ⟨.hbm, 152, rfl⟩
abbrev main_call5_c : Ref sig .tc := ⟨.hbm, 153, rfl⟩
abbrev main_call5_v0 : Ref sig .tc := ⟨.hbm, 154, rfl⟩
abbrev main_call5_v1 : Ref sig .tc := ⟨.hbm, 155, rfl⟩
abbrev main_call5_c_0 : Ref sig .tc := ⟨.hbm, 156, rfl⟩
abbrev main_call5_v2 : Ref sig .tc := ⟨.hbm, 157, rfl⟩
abbrev main_call5_v3 : Ref sig .tc := ⟨.hbm, 158, rfl⟩
abbrev main_call5_v4 : Ref sig .tc := ⟨.hbm, 159, rfl⟩
abbrev main_call5_c_1 : Ref sig .tc := ⟨.hbm, 160, rfl⟩
abbrev main_call5_c_2 : Ref sig .tc := ⟨.hbm, 161, rfl⟩
abbrev main_call5_v5 : Ref sig .tc := ⟨.hbm, 162, rfl⟩
abbrev main_call5_v6 : Ref sig .tc := ⟨.hbm, 163, rfl⟩
abbrev main_call5_v7 : Ref sig .tc := ⟨.hbm, 164, rfl⟩
abbrev main_call5_v8 : Ref sig .tc := ⟨.hbm, 165, rfl⟩
abbrev main_call5_v9 : Ref sig .tc := ⟨.hbm, 166, rfl⟩
abbrev main_call5_v10 : Ref sig .tc := ⟨.hbm, 167, rfl⟩
abbrev main_call5_c_3 : Ref sig .tc := ⟨.hbm, 168, rfl⟩
abbrev main_call5_v11 : Ref sig .tc := ⟨.hbm, 169, rfl⟩
abbrev main_call5_v12 : Ref sig .tc := ⟨.hbm, 170, rfl⟩
abbrev main_call5_v13 : Ref sig .tc := ⟨.hbm, 171, rfl⟩
abbrev main_call5_cst : Ref sig .tc := ⟨.hbm, 172, rfl⟩
abbrev main_call5_v14 : Ref sig .tc := ⟨.hbm, 173, rfl⟩
abbrev main_v37 : Ref sig .tc := ⟨.hbm, 174, rfl⟩
abbrev main_v38 : Ref sig .tc := ⟨.hbm, 175, rfl⟩
abbrev main_v39 : Ref sig .tc := ⟨.hbm, 176, rfl⟩
abbrev main_v40 : Ref sig .tc := ⟨.hbm, 177, rfl⟩
abbrev main_v41 : Ref sig .tc := ⟨.hbm, 178, rfl⟩
abbrev main_v42 : Ref sig .tc := ⟨.hbm, 179, rfl⟩

abbrev nD : Nat := 1
abbrev τ : Topo := Topo.v7x

variable {F : FTy → Type} [FloatOps F]

class Facts₀ : Prop where
  shapeCasts_S6x256x64_S1536x64 : S6x256x64.ShapeCasts S1536x64
  bcast_S1536_S1536x1_0 : S1536.BroadcastsInDim S1536x1 (![0] : Fin 1 → Fin S1536x1.rank)
  bcast_S_S1536x64 : S_.BroadcastsInDim S1536x64 (![] : Fin 0 → Fin S1536x64.rank)
  bcast_S64_S1536x64_1 : S64.BroadcastsInDim S1536x64 (![1] : Fin 1 → Fin S1536x64.rank)
  bcast_S_S1536x1 : S_.BroadcastsInDim S1536x1 (![] : Fin 0 → Fin S1536x1.rank)
  bcast_S1536x1_S1536x64_0_1 : S1536x1.BroadcastsInDim S1536x64 (![0, 1] : Fin 2 → Fin S1536x64.rank)
  bcast_S1536x64_S1536x64x1_0_1 : S1536x64.BroadcastsInDim S1536x64x1 (![0, 1] : Fin 2 → Fin S1536x64x1.rank)
  concatenates_S1536x64x1_S1536x64x1_S1536x64x2_d2 : Shape.Concatenates [S1536x64x1, S1536x64x1] S1536x64x2 2
  shapeCasts_S1536x64_S6x256x64 : S1536x64.ShapeCasts S6x256x64
  slices_S256x64x2_S256x64x1_0_0_0 : S256x64x2.Slices ![0, 0, 0] S256x64x1
  shapeCasts_S256x64x1_S256x64 : S256x64x1.ShapeCasts S256x64
  slices_S256x64x2_S256x64x1_0_0_1 : S256x64x2.Slices ![0, 0, 1] S256x64x1
  bcast_S256x64_S1x256x64_1_2 : S256x64.BroadcastsInDim S1x256x64 (![1, 2] : Fin 2 → Fin S1x256x64.rank)
  bcast_S1x256x64_S6x256x64_0_1_2 : S1x256x64.BroadcastsInDim S6x256x64 (![0, 1, 2] : Fin 3 → Fin S6x256x64.rank)
  bcast_S_S6x256x64 : S_.BroadcastsInDim S6x256x64 (![] : Fin 0 → Fin S6x256x64.rank)
  shapeCasts_S6x256x64_S6x256x64x1 : S6x256x64.ShapeCasts S6x256x64x1
  bcast_S_S6x256x64x1 : S_.BroadcastsInDim S6x256x64x1 (![] : Fin 0 → Fin S6x256x64x1.rank)
  bcast_S1_S1x1x1x1_3 : S1.BroadcastsInDim S1x1x1x1 (![3] : Fin 1 → Fin S1x1x1x1.rank)
  bcast_S1x1x1x1_S6x256x64x1_0_1_2_3 : S1x1x1x1.BroadcastsInDim S6x256x64x1 (![0, 1, 2, 3] : Fin 4 → Fin S6x256x64x1.rank)
  reducesTo_S6x256x64x1_S6x256x64_d3 : S6x256x64x1.ReducesTo [3] S6x256x64
  h_S_ : 0 < S_.numel
  bcast_S6x256x64_S6x256x64x1_0_1_2 : S6x256x64.BroadcastsInDim S6x256x64x1 (![0, 1, 2] : Fin 3 → Fin S6x256x64x1.rank)
  bcast_S6x256x64_S6x256x64x256_0_1_2 : S6x256x64.BroadcastsInDim S6x256x64x256 (![0, 1, 2] : Fin 3 → Fin S6x256x64x256.rank)
  bcast_S_S6x256x64x256 : S_.BroadcastsInDim S6x256x64x256 (![] : Fin 0 → Fin S6x256x64x256.rank)
  concatenates_S6x256x64x256_S6x256x64x256_S6x256x64x512_d3 : Shape.Concatenates [S6x256x64x256, S6x256x64x256] S6x256x64x512 3
  bcast_S51_S1x1x1x51_3 : S51.BroadcastsInDim S1x1x1x51 (![3] : Fin 1 → Fin S1x1x1x51.rank)
  bcast_S1x1x1x51_S6x256x64x51_0_1_2_3 : S1x1x1x51.BroadcastsInDim S6x256x64x51 (![0, 1, 2, 3] : Fin 4 → Fin S6x256x64x51.rank)
  scatter_S1536x64_S1536x64x2_S1536x64_n_01_01_2_wf : ScatterDims.WF S1536x64 S1536x64x2 S1536x64 [] [0, 1] [0, 1] 2
  gather_S6x256x64_S6x256x64x1_S6x256x64_n_2_01_01_2_3_111_wf : GatherDims.WF S6x256x64 S6x256x64x1 S6x256x64 [] [2] [0, 1] [2] [0, 1] 3 ![1, 1, 1]
  gather_S6x256x101x256_S6x256x64x1_S6x256x64x256_3_2_01_01_2_3_111256_wf : GatherDims.WF S6x256x101x256 S6x256x64x1 S6x256x64x256 [3] [2] [0, 1] [2] [0, 1] 3 ![1, 1, 1, 256]
  dot_S6x256x64x512_S51x512_S6x256x64x51_3_1_012_0_n_n_wf : DotDims.WF S6x256x64x512 S51x512 S6x256x64x51 [3] [1] [0, 1, 2] [0] [] []

variable [Facts₀]

def scatter_S1536x64_S1536x64x2_S1536x64_n_01_01_2 : ScatterDims S1536x64 S1536x64x2 S1536x64 where
  updateWindowDims := []
  insertedWindowDims := [0, 1]
  scatterDimsToOperandDims := [0, 1]
  indexVectorDim := 2
  wf := scatter_S1536x64_S1536x64x2_S1536x64_n_01_01_2_wf
def gather_S6x256x64_S6x256x64x1_S6x256x64_n_2_01_01_2_3_111 : GatherDims S6x256x64 S6x256x64x1 S6x256x64 where
  offsetDims := []
  collapsedSliceDims := [2]
  operandBatchingDims := [0, 1]
  startIndicesBatchingDims := [0, 1]
  startIndexMap := [2]
  indexVectorDim := 3
  sliceSizes := ![1, 1, 1]
  wf := gather_S6x256x64_S6x256x64x1_S6x256x64_n_2_01_01_2_3_111_wf
def gather_S6x256x101x256_S6x256x64x1_S6x256x64x256_3_2_01_01_2_3_111256 : GatherDims S6x256x101x256 S6x256x64x1 S6x256x64x256 where
  offsetDims := [3]
  collapsedSliceDims := [2]
  operandBatchingDims := [0, 1]
  startIndicesBatchingDims := [0, 1]
  startIndexMap := [2]
  indexVectorDim := 3
  sliceSizes := ![1, 1, 1, 256]
  wf := gather_S6x256x101x256_S6x256x64x1_S6x256x64x256_3_2_01_01_2_3_111256_wf
def dot_S6x256x64x512_S51x512_S6x256x64x51_3_1_012_0_n_n : DotDims S6x256x64x512 S51x512 S6x256x64x51 where
  lhsContracting := [3]
  rhsContracting := [1]
  lhsNonContracting := [0, 1, 2]
  rhsNonContracting := [0]
  lhsBatch := []
  rhsBatch := []
  wf := dot_S6x256x64x512_S51x512_S6x256x64x51_3_1_012_0_n_n_wf

class Facts : Prop extends Facts₀ where

variable [Facts]
-- ==== Proof.Spec.lean ====
/-
  The predicate-classifier head, as one formula.

  For a decoder layer `l`, an image `b`, a relation `r` and a predicate class `p`, the logit is

    ∑_{d < 256} hs[l, b, qs[l, b, r], d] · W[p, d]  +  ∑_{d < 256} hs[l, b, qo[l, b, r], d] · W[p, 256 + d]  +  bias[p],

  where `qs` and `qo` are the query slots (rows of the 101-row hidden-state slab of image `(l, b)`) matched to the
  relation's subject and object. The slots arrive as 32-bit words; `rowOf` reads a word as a row, folding a word
  that is no row into the axis so that the formula is total: both programs are shown to compute it only where
  every word is a row (`toNat < 101`), and there `rowOf` is the word's value.

  The kernel gathers each row by multiplying the slab with a one-hot row and then applies the two halves of `W`
  as two products that it adds; the reference gathers the rows, joins subject and object along the feature axis
  and contracts the 512 joined features at once. Over the extended reals both are this formula: a one-hot sum
  keeps its one term (`0 · x = 0` and `1 · x = x` for every extended real `x`), and a sum over 512 joined
  features is the sum over the first 256 plus the sum over the last 256 (addition of extended reals is
  commutative and associative; nothing here needs a finite input).
-/
import Idealize.ShloMosaic.PureOps.Ideal
import Idealize.ShloMosaic.Lib.ValueIdx

noncomputable section

namespace Cert.Spec

open Idealize.ShloMosaic Idealize.ShloMosaic.ValueIdx

/-- The hidden states `hs : [6, 256, 101, 256]`. -/
abbrev SHs : Shape := ⟨4, ![6, 256, 101, 256]⟩
/-- A query-slot array `[6, 256, 64]`: one word per layer, image and relation. -/
abbrev SQ : Shape := ⟨3, ![6, 256, 64]⟩
/-- The classifier's weights `W : [51, 512]`. -/
abbrev SW : Shape := ⟨2, ![51, 512]⟩
/-- The classifier's bias `[51]`. -/
abbrev SB : Shape := ⟨1, ![51]⟩
/-- The logits `[6, 256, 64, 51]`. -/
abbrev SOut : Shape := ⟨4, ![6, 256, 64, 51]⟩

/-- The row of the 101-row slab a slot word names: its value, folded into the axis when it is no row. -/
def rowOf (q : BitVec 32) : Fin 101 := ⟨q.toNat % 101, Nat.mod_lt _ (by decide)⟩

theorem rowOf_val {q : BitVec 32} (h : q.toNat < 101) : (rowOf q).val = q.toNat := Nat.mod_eq_of_lt h

/-- Feature `d` of the first half of the 512 joined features. -/
def lo (d : Fin 256) : Fin 512 := ⟨d.val, by have := d.isLt; omega⟩
/-- Feature `d` of the second half of the 512 joined features. -/
def hi (d : Fin 256) : Fin 512 := ⟨256 + d.val, by have := d.isLt; omega⟩

/-- The logit of class `p` for relation `r` of image `(l, b)`. -/
def logitAt (hs : SHs.Idx → EReal) (W : SW.Idx → EReal) (bias : SB.Idx → EReal) (qs qo : SQ.Idx → BitVec 32)
    (l : Fin 6) (b : Fin 256) (r : Fin 64) (p : Fin 51) : EReal :=
  (∑ d : Fin 256, hs (ix4 l b (rowOf (qs (ix3 l b r))) d) * W (ix2 p (lo d)))
    + (∑ d : Fin 256, hs (ix4 l b (rowOf (qo (ix3 l b r))) d) * W (ix2 p (hi d)))
    + bias (ix1 p)

/-- All the logits. -/
def logits (hs : SHs.Idx → EReal) (W : SW.Idx → EReal) (bias : SB.Idx → EReal) (qs qo : SQ.Idx → BitVec 32) :
    SOut.Idx → EReal :=
  fun i => logitAt hs W bias qs qo ⟨(i 0).val, (i 0).isLt⟩ ⟨(i 1).val, (i 1).isLt⟩ ⟨(i 2).val, (i 2).isLt⟩ ⟨(i 3).val, (i 3).isLt⟩

theorem logits_ix4 (hs : SHs.Idx → EReal) (W : SW.Idx → EReal) (bias : SB.Idx → EReal) (qs qo : SQ.Idx → BitVec 32)
    (l : Fin 6) (b : Fin 256) (r : Fin 64) (p : Fin 51) :
    logits hs W bias qs qo (ix4 l b r p) = logitAt hs W bias qs qo l b r p := rfl

/-- A sum over the 512 joined features splits at the join. -/
theorem sum_join (f : Fin 512 → EReal) : ∑ k : Fin 512, f k = (∑ d : Fin 256, f (lo d)) + ∑ d : Fin 256, f (hi d) := by
  have h := Fin.sum_univ_add (M := EReal) (a := 256) (b := 256) (fun k : Fin (256 + 256) => f k)
  refine h.trans ?_
  refine congrArg₂ (· + ·) (Finset.sum_congr rfl fun d _ => ?_) (Finset.sum_congr rfl fun d _ => ?_)
  · exact congrArg f (Fin.ext rfl)
  · exact congrArg f (Fin.ext rfl)

/-- A one-hot sum keeps its one term: over the extended reals `0 · x = 0` whatever `x` is. -/
theorem sum_onehot (n : Nat) (k : Fin n) (x : Fin n → EReal) :
    ∑ q : Fin n, (if q = k then (1 : EReal) else 0) * x q = x k := by
  rw [Finset.sum_eq_single k]
  · rw [if_pos rfl, one_mul]
  · intro q _ hq; rw [if_neg hq, zero_mul]
  · intro h; exact absurd (Finset.mem_univ k) h

end Cert.Spec

end
-- ==== Proof.RefValue.lean ====
/-
  The reference computes the specification's formula wherever the resolved slots are rows: there its two
  hidden-state gathers are in range (no fill value is read), each gathered row is the slab's row, the joined
  512 features split at the join, and the bias is added last.

  A slot word `q` that is a row has `q < 101 < 2^31`, so read as a signed number it is its value: it is not
  negative (the wrap `q + 101` is not taken), and `0 ≤ q ≤ 100` holds (the range bit is set). The conjunction
  over the start index's one component is that bit, so the select keeps the gathered value; and the gather reads
  the slab at the start index clamped into `[0, 100]`, which is `q` itself. This is proved once for any slab,
  slot words, start indices and range bits related pointwise in this way, and used for the subject and for the
  object look-up. The 512 joined features are the subject row below the join and the object row from it on, so
  the contraction with the weights is the sum of the two 256-term sums of the formula.
-/
import proofs.«415238_j44624710205890_2_alg».proof.Proof.RefStages
import proofs.«415238_j44624710205890_2_alg».proof.Proof.Spec
import Idealize.ShloMosaic.PureOps.Ideal.Laws
import Idealize.ShloMosaic.PureOps.Reduce
import Idealize.ShloMosaic.Lib.Pipeline.Value
import Idealize.ShloMosaic.Lib.StableHlo.Predicate

noncomputable section

namespace Cert.Hand.Ref

open Idealize.ShloMosaic Idealize.ShloMosaic.ValueIdx Cert.ReferenceIdeal Cert.ReferenceIdeal.Gen Cert.ReferenceIdeal.Stages

/-! ## Slot words that are rows -/

/-- A slot word that is a row is not negative, so the wrap of a negative index leaves it alone. -/
theorem wrap_row {q : BitVec 32} (h : q.toNat < 101) :
    Scalar.select (IntOp.cmpi .slt q 0#32) (IntOp.addi q 101#32) q = q := by
  have hn : ¬ IntOp.cmpi .slt q 0#32 = 1#1 := by
    rw [StableHlo.Predicate.slt_iff_toNat (by omega) (by decide)]
    simp
  rw [eq_zero_of_ne_one hn, select_zero]

/-- A slot word that is a row passes the range test `0 ≤ q ≤ 100`. -/
theorem inrange_row {q : BitVec 32} (h : q.toNat < 101) :
    IntOp.andi (IntOp.cmpi .sge q 0#32) (IntOp.cmpi .sle q 100#32) = 1#1 := by
  have h1 : IntOp.cmpi .sge q 0#32 = 1#1 := (StableHlo.Predicate.sge_iff_toNat (by omega) (by decide)).2 (by simp)
  have h2 : IntOp.cmpi .sle q 100#32 = 1#1 := (StableHlo.Predicate.sle_iff_toNat (by omega) (by decide)).2 (by
    show q.toNat ≤ 100; omega)
  rw [h1, h2]; rfl

/-! ## The two operations that are not read elementwise: the fold over a one-element axis, and the gather -/

/-- A fold over an axis of extent one is the operation applied once. -/
theorem fold_one {α : Type} (n : Nat) (hn : n = 1) (op : α → α → α) [Std.Commutative op] [Std.Associative op] (b : α)
    (f : Fin n → α) : (Finset.univ : Finset (Fin n)).fold op b f = op (f ⟨0, by omega⟩) b := by
  subst hn
  rw [Finset.univ_unique, Finset.fold_singleton]
  rfl

/-- The conjunction over the last axis of a `[6, 256, 64, 1]` array of bits, at `(l, b, r)`: its one bit there,
    and the initial value. -/
theorem and_reduce_one (m : IVec S6x256x64x1 1) (c : IVec S_ 1) (l : Fin 6) (b : Fin 256) (r : Fin 64) :
    Host.reduce IntOp.andi m c reducesTo_S6x256x64x1_S6x256x64_d3 h_S_ (ix3 l b r)
      = IntOp.andi (m (ix4 l b r (0 : Fin 1))) (c ix0) := by
  have hR : S6x256x64x1.Reduces [3] S6x256x64 := by decide
  rw [Host.reduce_eq_fold_single IntOp.andi m c reducesTo_S6x256x64x1_S6x256x64_d3 hR h_S_ (ix3 l b r),
    fold_one (S6x256x64x1.size 3) rfl]
  have e1 : hR.lift (ix3 l b r) ⟨0, by decide⟩ = ix4 l b r (0 : Fin 1) := by
    funext a; refine Fin.ext ?_
    match a with
    | ⟨0, _⟩ => rfl
    | ⟨1, _⟩ => rfl
    | ⟨2, _⟩ => rfl
    | ⟨3, _⟩ => rfl
  have e2 : Shape.Idx.first h_S_ = ix0 := funext fun a => a.elim0
  show IntOp.andi (m (hR.lift (ix3 l b r) ⟨0, _⟩)) (c (Shape.Idx.first h_S_)) = _
  rw [e1, e2]

/-- The gather's dimension numbers: layer and image are batching axes, the row axis is collapsed and is the one the
    start index names, the feature axis is the offset axis (the whole 256-wide row is the slice). -/
abbrev rowDims := gather_S6x256x101x256_S6x256x64x1_S6x256x64x256_3_2_01_01_2_3_111256

/-- The gather of the slab at an array of start indices, read at `(l, b, r, d)` where the start index is a row:
    the clamp that makes the slice fit is the identity there, so it is the slab at that row. -/
theorem gather_row (x0 : S6x256x101x256.Idx → EReal) (w : IVec S6x256x64x1 32)
    (l : Fin 6) (b : Fin 256) (r : Fin 64) (d : Fin 256) (hw : (w (ix4 l b r (0 : Fin 1))).toNat < 101) :
    Host.gather rowDims x0 w (ix4 l b r d) = x0 (ix4 l b ⟨(w (ix4 l b r (0 : Fin 1))).toNat, hw⟩ d) := by
  unfold Host.gather
  congr 1
  funext a
  refine Fin.ext ?_
  match a with
  | ⟨0, _⟩ =>
    -- a batching axis: the result's own coordinate
    show rowDims.start (ix4 l b r d) w 0 + rowDims.batchCoord (ix4 l b r d) 0 + rowDims.offCoord (ix4 l b r d) 0 = l.val
    rw [GatherDims.start_batching _ _ _ _ (by decide), GatherDims.offCoord_eq_zero _ _ _ (by decide)]
    simp only [Nat.zero_add, Nat.add_zero]
    rfl
  | ⟨1, _⟩ =>
    show rowDims.start (ix4 l b r d) w 1 + rowDims.batchCoord (ix4 l b r d) 1 + rowDims.offCoord (ix4 l b r d) 1 = b.val
    rw [GatherDims.start_batching _ _ _ _ (by decide), GatherDims.offCoord_eq_zero _ _ _ (by decide)]
    simp only [Nat.zero_add, Nat.add_zero]
    rfl
  | ⟨2, _⟩ =>
    -- the row axis: the start index, read signed and clamped into `[0, 100]`
    show rowDims.start (ix4 l b r d) w 2 + rowDims.batchCoord (ix4 l b r d) 2 + rowDims.offCoord (ix4 l b r d) 2
      = (w (ix4 l b r (0 : Fin 1))).toNat
    rw [GatherDims.batchCoord_eq_zero _ _ _ (by decide), GatherDims.offCoord_eq_zero _ _ _ (by decide)]
    simp only [Nat.add_zero]
    unfold GatherDims.start
    rw [dif_pos (show (2 : Fin 4) ∈ rowDims.startIndexMap by decide)]
    have hsi : rowDims.siIdx (ix4 l b r d) ⟨List.idxOf (2 : Fin 4) rowDims.startIndexMap, List.idxOf_lt_length_iff.2 (by decide)⟩
        = ix4 l b r (0 : Fin 1) := by
      funext c; refine Fin.ext ?_
      match c with
      | ⟨0, _⟩ => rfl
      | ⟨1, _⟩ => rfl
      | ⟨2, _⟩ => rfl
      | ⟨3, _⟩ => rfl
    rw [hsi, StableHlo.Predicate.toInt_eq_toNat_of_lt (by omega), Int.toNat_natCast]
    show min _ (101 - 1) = _
    omega
  | ⟨3, _⟩ =>
    -- the offset axis: the feature
    show rowDims.start (ix4 l b r d) w 3 + rowDims.batchCoord (ix4 l b r d) 3 + rowDims.offCoord (ix4 l b r d) 3 = d.val
    have hs : rowDims.start (ix4 l b r d) w 3 = 0 := by
      unfold GatherDims.start
      rw [dif_neg (by decide)]
    rw [hs, GatherDims.batchCoord_eq_zero _ _ _ (by decide)]
    simp only [Nat.zero_add]
    rfl

/-! ## The hidden-state look-up at a row -/

/-- One look-up of the slab along its row axis, read at `(l, b, r, d)`: given the slot words `q` (all rows), the wrapped
    start indices `w` (pointwise the slot words), and the range bits `m` (pointwise the range test of the start
    index), the selected value is the slab's at the row the slot word names; the fill value is never taken. -/
theorem take_row (x0 : S6x256x101x256.Idx → EReal) (q : S6x256x64.Idx → BitVec 32) (w : IVec S6x256x64x1 32)
    (m : IVec S6x256x64x1 1) (c : IVec S_ 1) (fill : EReal)
    (hq : ∀ j, (q j).toNat < 101)
    (hw : ∀ l b r, w (ix4 l b r (0 : Fin 1)) = q (ix3 l b r))
    (hm : ∀ l b r, m (ix4 l b r (0 : Fin 1)) = 1#1) (hc : c ix0 = 1#1)
    (l : Fin 6) (b : Fin 256) (r : Fin 64) (d : Fin 256) :
    Scalar.select (Host.reduce IntOp.andi m c reducesTo_S6x256x64x1_S6x256x64_d3 h_S_ (ix3 l b r))
        (Host.gather rowDims x0 w (ix4 l b r d)) fill
      = x0 (ix4 l b (Cert.Spec.rowOf (q (ix3 l b r))) d) := by
  have hwr : (w (ix4 l b r (0 : Fin 1))).toNat < 101 := by rw [hw]; exact hq _
  rw [and_reduce_one, hm, hc, gather_row x0 w l b r d hwr, show IntOp.andi (1#1 : BitVec 1) 1#1 = 1#1 from rfl, select_one]
  refine congrArg x0 (funext fun a => Fin.ext ?_)
  match a with
  | ⟨0, _⟩ => rfl
  | ⟨1, _⟩ => rfl
  | ⟨2, _⟩ =>
    show (w (ix4 l b r (0 : Fin 1))).toNat = (Cert.Spec.rowOf (q (ix3 l b r))).val
    rw [Cert.Spec.rowOf_val (hq _), hw]
  | ⟨3, _⟩ => rfl

/-! ## The reference's two look-ups -/

/-- The subject rows the reference gathers are the slab's rows at the subject slots. -/
theorem subj_row (x0 : (⟨S6x256x101x256, .f32⟩ : BufTy).Contents (Elt Ideal)) (x1 x2 : (⟨S6x256x64, .i32⟩ : BufTy).Contents (Elt Ideal))
    (x3 : (⟨S256x64x2, .i32⟩ : BufTy).Contents (Elt Ideal))
    (hQ : ∀ j, (val_main_v29 (F := Ideal) x1 x2 x3 j).toNat < 101) (l : Fin 6) (b : Fin 256) (r : Fin 64) (d : Fin 256) :
    val_main_v31 (F := Ideal) x0 x1 x2 x3 (ix4 l b r d)
      = x0 (ix4 l b (Cert.Spec.rowOf (val_main_v29 (F := Ideal) x1 x2 x3 (ix3 l b r))) d) := by
  -- the wrapped start index is the slot word
  have hw : ∀ l b r, val_main_call2_v4 (F := Ideal) x1 x2 x3 (ix4 l b r (0 : Fin 1)) = val_main_v29 (F := Ideal) x1 x2 x3 (ix3 l b r) := by
    intro l b r
    rw [val_main_call2_v4_apply, val_main_call2_v1_apply, val_main_call2_v3_apply, val_main_call2_v0_apply, val_main_call2_c_apply,
      val_main_call2_v2_apply, val_main_call2_c_0_apply, val_main_v30_apply]
    rw [show idx_main_v30 (ix4 l b r (0 : Fin 1)) = ix3 l b r from
      funext fun a => match a with | ⟨0, _⟩ => rfl | ⟨1, _⟩ => rfl | ⟨2, _⟩ => rfl]
    exact wrap_row (hQ _)
  -- its range bit is set
  have hm : ∀ l b r, val_main_call2_v10 (F := Ideal) x1 x2 x3 (ix4 l b r (0 : Fin 1)) = 1#1 := by
    intro l b r
    rw [val_main_call2_v10_apply, val_main_call2_v6_apply, val_main_call2_v9_apply, val_main_call2_v5_apply, val_main_call2_c_2_apply,
      val_main_call2_v8_apply, val_main_call2_v7_apply, val_main_call2_c_1_apply, hw l b r]
    exact inrange_row (hQ _)
  rw [val_main_v31_apply, val_main_call2_v13_apply]
  rw [show idx_main_call2_v13 (ix4 l b r d) = ix3 l b r from
    funext fun a => match a with | ⟨0, _⟩ => rfl | ⟨1, _⟩ => rfl | ⟨2, _⟩ => rfl]
  exact take_row x0 (val_main_v29 (F := Ideal) x1 x2 x3) (val_main_call2_v4 (F := Ideal) x1 x2 x3) (val_main_call2_v10 (F := Ideal) x1 x2 x3)
    (val_main_call2_c_3 (F := Ideal)) _ hQ hw hm rfl l b r d

/-- The object rows the reference gathers are the slab's rows at the object slots. -/
theorem obj_row (x0 : (⟨S6x256x101x256, .f32⟩ : BufTy).Contents (Elt Ideal)) (x1 x2 : (⟨S6x256x64, .i32⟩ : BufTy).Contents (Elt Ideal))
    (x3 : (⟨S256x64x2, .i32⟩ : BufTy).Contents (Elt Ideal))
    (hQ : ∀ j, (val_main_v35 (F := Ideal) x1 x2 x3 j).toNat < 101) (l : Fin 6) (b : Fin 256) (r : Fin 64) (d : Fin 256) :
    val_main_v37 (F := Ideal) x0 x1 x2 x3 (ix4 l b r d)
      = x0 (ix4 l b (Cert.Spec.rowOf (val_main_v35 (F := Ideal) x1 x2 x3 (ix3 l b r))) d) := by
  -- the wrapped start index is the slot word
  have hw : ∀ l b r, val_main_call5_v4 (F := Ideal) x1 x2 x3 (ix4 l b r (0 : Fin 1)) = val_main_v35 (F := Ideal) x1 x2 x3 (ix3 l b r) := by
    intro l b r
    rw [val_main_call5_v4_apply, val_main_call5_v1_apply, val_main_call5_v3_apply, val_main_call5_v0_apply, val_main_call5_c_apply,
      val_main_call5_v2_apply, val_main_call5_c_0_apply, val_main_v36_apply]
    rw [show idx_main_v36 (ix4 l b r (0 : Fin 1)) = ix3 l b r from
      funext fun a => match a with | ⟨0, _⟩ => rfl | ⟨1, _⟩ => rfl | ⟨2, _⟩ => rfl]
    exact wrap_row (hQ _)
  -- its range bit is set
  have hm : ∀ l b r, val_main_call5_v10 (F := Ideal) x1 x2 x3 (ix4 l b r (0 : Fin 1)) = 1#1 := by
    intro l b r
    rw [val_main_call5_v10_apply, val_main_call5_v6_apply, val_main_call5_v9_apply, val_main_call5_v5_apply, val_main_call5_c_2_apply,
      val_main_call5_v8_apply, val_main_call5_v7_apply, val_main_call5_c_1_apply, hw l b r]
    exact inrange_row (hQ _)
  rw [val_main_v37_apply, val_main_call5_v13_apply]
  rw [show idx_main_call5_v13 (ix4 l b r d) = ix3 l b r from
    funext fun a => match a with | ⟨0, _⟩ => rfl | ⟨1, _⟩ => rfl | ⟨2, _⟩ => rfl]
  exact take_row x0 (val_main_v35 (F := Ideal) x1 x2 x3) (val_main_call5_v4 (F := Ideal) x1 x2 x3) (val_main_call5_v10 (F := Ideal) x1 x2 x3)
    (val_main_call5_c_3 (F := Ideal)) _ hQ hw hm rfl l b r d

/-! ## The join of subject and object features -/

/-- Below the join the 512 joined features are the subject row's. -/
theorem join_lo (x0 : (⟨S6x256x101x256, .f32⟩ : BufTy).Contents (Elt Ideal)) (x1 x2 : (⟨S6x256x64, .i32⟩ : BufTy).Contents (Elt Ideal))
    (x3 : (⟨S256x64x2, .i32⟩ : BufTy).Contents (Elt Ideal)) (l : Fin 6) (b : Fin 256) (r : Fin 64) (p : Fin 51) (d : Fin 256) :
    val_main_v38 (F := Ideal) x0 x1 x2 x3 (lidx_main_v39 (ix4 l b r p) (Cert.Spec.lo d))
      = val_main_v31 (F := Ideal) x0 x1 x2 x3 (ix4 l b r d) := by
  unfold val_main_v38
  exact concatenate_pair_apply_left 3 _ _ concatenates_S6x256x64x256_S6x256x64x256_S6x256x64x512_d3 _ rfl (ix4 l b r d)
    (fun a => match a with | ⟨0, _⟩ => rfl | ⟨1, _⟩ => rfl | ⟨2, _⟩ => rfl | ⟨3, _⟩ => rfl)

/-- From the join on they are the object row's. -/
theorem join_hi (x0 : (⟨S6x256x101x256, .f32⟩ : BufTy).Contents (Elt Ideal)) (x1 x2 : (⟨S6x256x64, .i32⟩ : BufTy).Contents (Elt Ideal))
    (x3 : (⟨S256x64x2, .i32⟩ : BufTy).Contents (Elt Ideal)) (l : Fin 6) (b : Fin 256) (r : Fin 64) (p : Fin 51) (d : Fin 256) :
    val_main_v38 (F := Ideal) x0 x1 x2 x3 (lidx_main_v39 (ix4 l b r p) (Cert.Spec.hi d))
      = val_main_v37 (F := Ideal) x0 x1 x2 x3 (ix4 l b r d) := by
  unfold val_main_v38
  exact concatenate_pair_apply_right 3 _ _ concatenates_S6x256x64x256_S6x256x64x256_S6x256x64x512_d3 _ rfl rfl (ix4 l b r d)
    (fun a ha => match a, ha with
      | ⟨0, _⟩, _ => rfl | ⟨1, _⟩, _ => rfl | ⟨2, _⟩, _ => rfl | ⟨3, _⟩, ha => absurd rfl ha)
    (by show d.val + 256 = 256 + d.val; exact Nat.add_comm _ _)

end Cert.Hand.Ref

namespace Cert.Hand

open Idealize.ShloMosaic Idealize.ShloMosaic.ValueIdx Cert.ReferenceIdeal Cert.ReferenceIdeal.Stages Cert.Hand.Ref

/-- The reference's result at `(l, b, r, p)`. -/
theorem ref_at (x0 : (⟨S6x256x101x256, .f32⟩ : BufTy).Contents (Elt Ideal)) (x1 x2 : (⟨S6x256x64, .i32⟩ : BufTy).Contents (Elt Ideal))
    (x3 : (⟨S256x64x2, .i32⟩ : BufTy).Contents (Elt Ideal)) (x4 : (⟨S51x512, .f32⟩ : BufTy).Contents (Elt Ideal))
    (x5 : (⟨S51, .f32⟩ : BufTy).Contents (Elt Ideal))
    (hS : ∀ j, (val_main_v29 (F := Ideal) x1 x2 x3 j).toNat < 101) (hO : ∀ j, (val_main_v35 (F := Ideal) x1 x2 x3 j).toNat < 101)
    (l : Fin 6) (b : Fin 256) (r : Fin 64) (p : Fin 51) :
    val_main_v42 (F := Ideal) x0 x1 x2 x3 x4 x5 (ix4 l b r p)
      = Cert.Spec.logitAt x0 x4 x5 (val_main_v29 (F := Ideal) x1 x2 x3) (val_main_v35 (F := Ideal) x1 x2 x3) l b r p := by
  rw [val_main_v42_apply, val_main_v39_apply, val_main_v41_apply, val_main_v40_apply, Cert.Spec.sum_join]
  unfold Cert.Spec.logitAt
  -- the weight and the bias are read at the class `p`
  have hW : ∀ k : Fin 512, ridx_main_v39 (ix4 l b r p) k = ix2 p k := fun k =>
    funext fun a => match a with | ⟨0, _⟩ => rfl | ⟨1, _⟩ => rfl
  have hB : idx_main_v40 (idx_main_v41 (ix4 l b r p)) = ix1 p := funext fun a => match a with | ⟨0, _⟩ => rfl
  refine congrArg₂ (· + ·) (congrArg₂ (· + ·) (Finset.sum_congr rfl fun d _ => ?_) (Finset.sum_congr rfl fun d _ => ?_)) ?_
  · rw [join_lo, subj_row x0 x1 x2 x3 hS, hW]
  · rw [join_hi, obj_row x0 x1 x2 x3 hO, hW]
  · rw [hB]

/-- So the reference's result is the specification's array. -/
theorem ref_value (x0 : (⟨S6x256x101x256, .f32⟩ : BufTy).Contents (Elt Ideal)) (x1 x2 : (⟨S6x256x64, .i32⟩ : BufTy).Contents (Elt Ideal))
    (x3 : (⟨S256x64x2, .i32⟩ : BufTy).Contents (Elt Ideal)) (x4 : (⟨S51x512, .f32⟩ : BufTy).Contents (Elt Ideal))
    (x5 : (⟨S51, .f32⟩ : BufTy).Contents (Elt Ideal))
    (hS : ∀ j, (val_main_v29 (F := Ideal) x1 x2 x3 j).toNat < 101) (hO : ∀ j, (val_main_v35 (F := Ideal) x1 x2 x3 j).toNat < 101) :
    val_main_v42 (F := Ideal) x0 x1 x2 x3 x4 x5
      = Cert.Spec.logits x0 x4 x5 (val_main_v29 (F := Ideal) x1 x2 x3) (val_main_v35 (F := Ideal) x1 x2 x3) := by
  funext i
  rw [eq_ix4 i]
  exact ref_at x0 x1 x2 x3 x4 x5 hS hO _ _ _ _

end Cert.Hand

end
-- ==== Proof.LibScatterSet.lean ====
/-
  A scatter whose body returns the update (`x.at[idx].set(upd)`) only ever stores elements of `upd` over
  elements of `x`: each element of the result is an element of the operand or an element of the updates,
  whatever the scatter indices hold (repeats and out-of-range index vectors included). So a property that
  every element of the operand and every element of the updates has, every element of the result has.
-/
import Idealize.ShloMosaic.PureOps.ShapeOps

namespace Idealize.ShloMosaic

/-- One step of the overwriting scatter's fold keeps "every element satisfies `P`": the step either leaves
    the array alone or replaces one element by an update, and the updates satisfy `P`. The fold is a list
    of such steps. -/
theorem Host.scatter_set_forall {s si u : Shape} {α : Type} {w : Nat} (d : ScatterDims s si u) (x : s.Idx → α)
    (idx : IVec si w) (upd : u.Idx → α) (P : α → Prop) (hx : ∀ i, P (x i)) (hu : ∀ j, P (upd j)) (i : s.Idx) :
    P (Host.scatter d (fun _ b => b) x idx upd i) := by
  unfold Host.scatter
  suffices H : ∀ (l : List (Fin u.numel)) (r : s.Idx → α), (∀ i, P (r i)) →
      ∀ i, P (l.foldl (fun r n =>
        match d.resultIdx? (u.rowMajor.symm n) idx with
        | some i => fun i' => if i' = i then (fun _ b => b) (r i) (upd (u.rowMajor.symm n)) else r i'
        | none => r) r i) from H _ x hx i
  intro l
  induction l with
  | nil => intro r hr i; exact hr i
  | cons n l ih =>
    intro r hr i
    rw [List.foldl_cons]
    apply ih
    intro i'
    generalize d.resultIdx? (u.rowMajor.symm n) idx = o
    cases o with
    | none => exact hr i'
    | some k =>
      show P (if i' = k then upd (u.rowMajor.symm n) else r i')
      by_cases h : i' = k
      · rw [if_pos h]; exact hu _
      · rw [if_neg h]; exact hr i'

end Idealize.ShloMosaic
-- ==== Proof.IndexFacts.lean ====
/-
  The resolved query slots are rows of the slab.

  Both programs resolve a relation endpoint `t` to a query slot in two look-ups: `pos = lookup[l, b, t]`, where
  `lookup` is the scatter of `0 … 63` into zeros at the positions `tgt_perm` names, and `q = src_indices[l, b, pos]`.
  Every entry of `lookup` is one of the scattered values or a zero that was there, so it is below 64 whatever
  `tgt_perm` holds; with the endpoints below 64 the first look-up is in range and returns such an entry, and with
  that the second is in range and returns an entry of `src_indices`, which is below 101.
-/
import proofs.«415238_j44624710205890_2_alg».proof.Proof.RefStages
import proofs.«415238_j44624710205890_2_alg».proof.Proof.LibScatterSet
import Idealize.ShloMosaic.Lib.StableHlo.Predicate
import Idealize.ShloMosaic.Lib.ReduceAll

noncomputable section

namespace Cert.Hand

open Idealize.ShloMosaic Cert.ReferenceIdeal Cert.ReferenceIdeal.Stages

variable {F : FTy → Type} [FloatOps F]

/-! ### One look-up along the last axis, read at an index

A look-up `take_along_axis(a, t)` over an axis of extent 64 is printed as: add 64 to a negative index word, test
`0 ≤ · ≤ 63`, read the operand at the (clamped) word, and keep the read where the test holds, the smallest
integer elsewhere. -/

/-- An index word below 64 is not negative, so the wrap leaves it alone, and it passes both range tests. -/
theorem wrap_inrange (w : BitVec 32) (h : w.toNat < 64) :
    IntOp.andi
      (IntOp.cmpi .sge (Scalar.select (IntOp.cmpi .slt w 0#32) (IntOp.addi w 64#32) w) 0#32)
      (IntOp.cmpi .sle (Scalar.select (IntOp.cmpi .slt w 0#32) (IntOp.addi w 64#32) w) 63#32) = 1#1 := by
  have hw : w.toNat < 2 ^ 31 := by omega
  have h0 : (0#32 : BitVec 32).toNat < 2 ^ 31 := by decide
  have h63 : (63#32 : BitVec 32).toNat < 2 ^ 31 := by decide
  have hneg : ¬ IntOp.cmpi .slt w 0#32 = 1 := by
    intro e
    have := (StableHlo.Predicate.slt_iff_toNat hw h0).1 e
    exact Nat.not_lt_zero _ this
  unfold Scalar.select
  rw [if_neg hneg]
  refine IntOp.andi_eq_one.2 ⟨(StableHlo.Predicate.sge_iff_toNat hw h0).2 (Nat.zero_le _),
    (StableHlo.Predicate.sle_iff_toNat hw h63).2 ?_⟩
  show w.toNat ≤ 63
  omega

/-- A left fold by `and` that starts at 1 and meets only 1s ends at 1. -/
theorem foldl_andi_one {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    refine foldl_andi_one f hf l _ ?_
    rw [h, hf a]; decide

/-- An `and`-reduction from 1 of an array of 1s is 1 everywhere. -/
theorem reduce_andi_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x hx _ _ (hinit _)

/-- The look-up's last three operations at an index: where every range test holds the result is the gather's
    element, which is an element of the operand whatever word was read; so a bound on the operand's elements is a
    bound on the result's. -/
theorem lookup_bound {B : Nat} (a : IVec S6x256x64 32) (v5 : IVec S6x256x64x1 32) (v11 : IVec S6x256x64x1 1)
    (init : IVec S_ 1) (v14 : IVec S6x256x64 32) (hinit : ∀ k, init k = 1#1) (h11 : ∀ j, v11 j = 1#1)
    (ha : ∀ k, (a k).toNat < B) (i : S6x256x64.Idx) :
    (select (Host.reduce IntOp.andi v11 init Gen.reducesTo_S6x256x64x1_S6x256x64_d3 Gen.h_S_)
      (Host.gather gather_S6x256x64_S6x256x64x1_S6x256x64_n_2_01_01_2_3_111 a v5) v14 i).toNat < B := by
  show (Scalar.select (Host.reduce IntOp.andi v11 init Gen.reducesTo_S6x256x64x1_S6x256x64_d3 Gen.h_S_ i)
    (Host.gather gather_S6x256x64_S6x256x64x1_S6x256x64_n_2_01_01_2_3_111 a v5 i) (v14 i)).toNat < B
  rw [reduce_andi_one v11 init _ _ hinit h11 i]
  unfold Scalar.select
  rw [if_pos (show (1#1 : BitVec 1) = 1 from rfl)]
  exact ha _

/-! ### The table of positions -/

/-- Every entry of the scattered table is below 64: it is a zero of the operand or one of the scattered
    values `0 … 63`. -/
theorem lookup_lt (x2 : (⟨S6x256x64, .i32⟩ : BufTy).Contents (Elt F)) (k : S6x256x64.Idx) :
    (val_main_v21 (F := F) x2 k).toNat < 64 := by
  rw [val_main_v21_apply]
  unfold val_main_v20
  refine Host.scatter_set_forall _ _ _ _ (fun w : BitVec 32 => w.toNat < 64) (fun i => ?_) (fun j => ?_) _
  · show (val_main_v3 (F := F) i).toNat < 64
    rw [val_main_v3_apply, val_main_c_apply]; decide
  · show (val_main_v5 (F := F) j).toNat < 64
    rw [val_main_v5_apply, val_main_v4_apply, BitVec.toNat_ofNat]
    have hlt : (idx_main_v5 j 0).val < 64 := (idx_main_v5 j 0).isLt
    exact lt_of_le_of_lt (Nat.mod_le _ _) hlt

/-! ### The subject's chain -/

/-- The subject endpoint, broadcast over the layers, is an entry of `relationships`. -/
theorem subj_lt (x3 : (⟨S256x64x2, .i32⟩ : BufTy).Contents (Elt F)) (h3 : ∀ j, (x3 j).toNat < 64) (k : S6x256x64.Idx) :
    (val_main_v27 (F := F) x3 k).toNat < 64 := by
  rw [val_main_v27_apply, val_main_v26_apply, val_main_v23_apply, val_main_v22_apply]
  exact h3 _

/-- The subject's position is an entry of the table. -/
theorem subj_pos_lt (x2 : (⟨S6x256x64, .i32⟩ : BufTy).Contents (Elt F)) (x3 : (⟨S256x64x2, .i32⟩ : BufTy).Contents (Elt F))
    (h3 : ∀ j, (x3 j).toNat < 64) (k : S6x256x64.Idx) : (val_main_v28 (F := F) x2 x3 k).toNat < 64 := by
  unfold val_main_v28 val_main_call0_v12 val_main_call0_v13
  refine lookup_bound _ _ _ _ _ (fun _ => rfl) (fun j => ?_) (lookup_lt x2) k
  rw [val_main_call0_v11_apply, val_main_call0_v7_apply, val_main_call0_v10_apply, val_main_call0_v5_apply,
    val_main_call0_v4_apply, val_main_call0_v1_apply, val_main_call0_v3_apply, val_main_call0_v0_apply,
    val_main_call0_c_apply, val_main_call0_v2_apply, val_main_call0_c_0_apply, val_main_call0_v6_apply,
    val_main_call0_c_2_apply, val_main_call0_v9_apply, val_main_call0_v8_apply, val_main_call0_c_1_apply]
  exact wrap_inrange _ (subj_lt x3 h3 _)

/-- The subject's resolved slots are rows. -/
theorem qs_range (x1 x2 : (⟨S6x256x64, .i32⟩ : BufTy).Contents (Elt F)) (x3 : (⟨S256x64x2, .i32⟩ : BufTy).Contents (Elt F))
    (h1 : ∀ j, (x1 j).toNat < 101) (h3 : ∀ j, (x3 j).toNat < 64) :
    ∀ j, (val_main_v29 (F := F) x1 x2 x3 j).toNat < 101 := by
  intro k
  unfold val_main_v29 val_main_call1_v12 val_main_call1_v13
  refine lookup_bound _ _ _ _ _ (fun _ => rfl) (fun j => ?_) h1 k
  rw [val_main_call1_v11_apply, val_main_call1_v7_apply, val_main_call1_v10_apply, val_main_call1_v5_apply,
    val_main_call1_v4_apply, val_main_call1_v1_apply, val_main_call1_v3_apply, val_main_call1_v0_apply,
    val_main_call1_c_apply, val_main_call1_v2_apply, val_main_call1_c_0_apply, val_main_call1_v6_apply,
    val_main_call1_c_2_apply, val_main_call1_v9_apply, val_main_call1_v8_apply, val_main_call1_c_1_apply]
  exact wrap_inrange _ (subj_pos_lt x2 x3 h3 _)

/-! ### The object's chain: the same two look-ups from the other endpoint -/

/-- The object endpoint, broadcast over the layers, is an entry of `relationships`. -/
theorem obj_lt (x3 : (⟨S256x64x2, .i32⟩ : BufTy).Contents (Elt F)) (h3 : ∀ j, (x3 j).toNat < 64) (k : S6x256x64.Idx) :
    (val_main_v33 (F := F) x3 k).toNat < 64 := by
  rw [val_main_v33_apply, val_main_v32_apply, val_main_v25_apply, val_main_v24_apply]
  exact h3 _

/-- The object's position is an entry of the table. -/
theorem obj_pos_lt (x2 : (⟨S6x256x64, .i32⟩ : BufTy).Contents (Elt F)) (x3 : (⟨S256x64x2, .i32⟩ : BufTy).Contents (Elt F))
    (h3 : ∀ j, (x3 j).toNat < 64) (k : S6x256x64.Idx) : (val_main_v34 (F := F) x2 x3 k).toNat < 64 := by
  unfold val_main_v34 val_main_call3_v12 val_main_call3_v13
  refine lookup_bound _ _ _ _ _ (fun _ => rfl) (fun j => ?_) (lookup_lt x2) k
  rw [val_main_call3_v11_apply, val_main_call3_v7_apply, val_main_call3_v10_apply, val_main_call3_v5_apply,
    val_main_call3_v4_apply, val_main_call3_v1_apply, val_main_call3_v3_apply, val_main_call3_v0_apply,
    val_main_call3_c_apply, val_main_call3_v2_apply, val_main_call3_c_0_apply, val_main_call3_v6_apply,
    val_main_call3_c_2_apply, val_main_call3_v9_apply, val_main_call3_v8_apply, val_main_call3_c_1_apply]
  exact wrap_inrange _ (obj_lt x3 h3 _)

/-- The object's resolved slots are rows. -/
theorem qo_range (x1 x2 : (⟨S6x256x64, .i32⟩ : BufTy).Contents (Elt F)) (x3 : (⟨S256x64x2, .i32⟩ : BufTy).Contents (Elt F))
    (h1 : ∀ j, (x1 j).toNat < 101) (h3 : ∀ j, (x3 j).toNat < 64) :
    ∀ j, (val_main_v35 (F := F) x1 x2 x3 j).toNat < 101 := by
  intro k
  unfold val_main_v35 val_main_call4_v12 val_main_call4_v13
  refine lookup_bound _ _ _ _ _ (fun _ => rfl) (fun j => ?_) h1 k
  rw [val_main_call4_v11_apply, val_main_call4_v7_apply, val_main_call4_v10_apply, val_main_call4_v5_apply,
    val_main_call4_v4_apply, val_main_call4_v1_apply, val_main_call4_v3_apply, val_main_call4_v0_apply,
    val_main_call4_c_apply, val_main_call4_v2_apply, val_main_call4_c_0_apply, val_main_call4_v6_apply,
    val_main_call4_c_2_apply, val_main_call4_v9_apply, val_main_call4_v8_apply, val_main_call4_c_1_apply]
  exact wrap_inrange _ (obj_pos_lt x2 x3 h3 _)

end Cert.Hand

end
-- ==== Proof.PreFacts.lean ====
/-
  What the precondition says of the integer inputs: every matched query slot `src_indices[l, b, k]` is a row of
  the 101-row hidden-state slab, and every relation endpoint `relationships[b, r, ·]` is a position of the
  64-entry match list. (Read off the printed predicate: two signed comparisons against 0 and the axis extent per
  input, joined by `and` and reduced over the whole array.)
-/
import proofs.«415238_j44624710205890_2_alg».proof.Proof.Gen.Pre_finite_inputs
import Idealize.ShloMosaic.Lib.ReduceAll
import Idealize.ShloMosaic.Lib.StableHlo.Predicate

noncomputable section

namespace Cert.Hand

open Idealize.ShloMosaic Cert.Pre_finite_inputs

/-- The rank-0 result of a reduction over all axes has a single index. -/
private instance : Subsingleton S_.Idx := ⟨fun a b => funext fun d => d.elim0⟩

/-- A 32-bit word that is non-negative as a signed number and, signed, below a literal `n < 2³¹` is below `n`
    as an unsigned number: with the top bit clear the signed and unsigned readings agree, and with the top bit
    set the signed reading is negative. -/
private theorem toNat_lt_of_signed_range (x : BitVec 32) (n : Nat) (hn : n < 2 ^ 31)
    (hlo : IntOp.cmpi .sge x 0#32 = 1#1) (hhi : IntOp.cmpi .slt x (BitVec.ofNat 32 n) = 1#1) : x.toNat < n := by
  rw [IntOp.cmpi_sge] at hlo
  rw [IntOp.cmpi_slt] at hhi
  have hz : (0#32 : BitVec 32).toInt = 0 := by decide
  have hnI : (BitVec.ofNat 32 n).toInt = n := by
    rw [BitVec.toInt_eq_toNat_of_lt (by rw [BitVec.toNat_ofNat]; omega), BitVec.toNat_ofNat]; omega
  have hx := BitVec.toInt_eq_toNat_cond x
  rw [hz] at hlo
  rw [hnI] at hhi
  split at hx <;> omega

/-- Where the precondition holds, every slot word is below 101 and every endpoint word below 64 (as unsigned
    values: a word that is non-negative as a signed number and below the extent). -/
theorem ranges_of_pre {F : FTy → Type} [FloatOps F] (a0 : FVec F S6x256x101x256 .f32) (a1 a2 : IVec S6x256x64 32)
    (a3 : IVec S256x64x2 32) (a4 : FVec F S51x512 .f32) (a5 : FVec F S51 .f32)
    (h : Cert.Pre_finite_inputs.fn (F := F) a0 a1 a2 a3 a4 a5 = fun _ => 1#1) :
    (∀ j, (a1 j).toNat < 101) ∧ (∀ j, (a3 j).toNat < 64) := by
  -- the predicate's one word: ((float conjuncts ∧ all(0 ≤ a1 < 101)) ∧ all(0 ≤ a3 < 64))
  have h0 := congrFun h (fun d => d.elim0)
  unfold Cert.Pre_finite_inputs.fn Cert.Pre_finite_inputs.fn_part1 at h0
  dsimp only [andi] at h0
  obtain ⟨h1, hrel⟩ := IntOp.andi_eq_one.1 h0
  obtain ⟨-, hsrc⟩ := IntOp.andi_eq_one.1 h1
  refine ⟨fun j => ?_, fun j => ?_⟩
  · -- the reduction by `and` over all three axes is 1, so the element at `j` is 1; the broadcast constants read
    -- at `j` are the literals 0 and 101
    have e : IntOp.andi (IntOp.cmpi .sge (a1 j) 0#32) (IntOp.cmpi .slt (a1 j) (BitVec.ofNat 32 101)) = 1#1 :=
      Host.reduce_andi_all _ _ _ _ _ hsrc j
    obtain ⟨e0, e1⟩ := IntOp.andi_eq_one.1 e
    exact toNat_lt_of_signed_range (a1 j) 101 (by decide) e0 e1
  · have e : IntOp.andi (IntOp.cmpi .sge (a3 j) 0#32) (IntOp.cmpi .slt (a3 j) (BitVec.ofNat 32 64)) = 1#1 :=
      Host.reduce_andi_all _ _ _ _ _ hrel j
    obtain ⟨e0, e1⟩ := IntOp.andi_eq_one.1 e
    exact toNat_lt_of_signed_range (a3 j) 64 (by decide) e0 e1

end Cert.Hand

end
-- ==== Proof.KPayloadAux.lean ====
/-
  The gather by a one-hot product, and the layout steps around it, each read at one entry.

  A slot word \`x\` and the position \`q\` along the slab's 101 rows give the float \`1\` when \`q\` is the word's value and
  \`0\` otherwise; two such families stacked along the row axis and multiplied with the slab pick, in row \`r\`, the slab's
  row named by the first family's word and, in row \`64 + r\`, the row named by the second's. The remaining lemmas say
  where a reshape, a slice, a stacking and a row broadcast read their operand.
-/
import proofs.«415238_j44624710205890_2_alg».proof.Proof.Gen.KernelIdeal
import proofs.«415238_j44624710205890_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.Hand

open Idealize.ShloMosaic Idealize.ShloMosaic.ValueIdx Cert.KernelIdeal Cert.KernelIdeal.Gen

/-- Image \`bb\`'s relation \`r\` among the 3072 flattened rows. -/
def flatRow (bb : Fin 48) (r : Fin 64) : Fin 3072 := ⟨bb.val * 64 + r.val, by have := bb.isLt; have := r.isLt; omega⟩

/-- Row \`r\` of the first stacked family. -/
def loRow (r : Fin 64) : Fin 128 := ⟨r.val, by have := r.isLt; omega⟩
/-- Row \`r\` of the second stacked family. -/
def hiRow (r : Fin 64) : Fin 128 := ⟨64 + r.val, by have := r.isLt; omega⟩

/-! ## Layout steps -/

/-- The flattened result seen as 48 images of 64 relations: entry \`(bb, r, p)\` is entry \`(bb · 64 + r, p)\`. -/
theorem outCast_apply {α : Type} (y : S3072x51.Idx → α) (h : S3072x51.ShapeCasts S48x64x51) (bb : Fin 48) (r : Fin 64) (p : Fin 51) :
    shapeCast S48x64x51 y h (ix3 bb r p) = y (ix2 (flatRow bb r) p) := by
  refine shapeCast_apply y h (ix3 bb r p) (ix2 (flatRow bb r) p) ?_
  rw [Shape.rowMajor_val_two, Shape.rowMajor_val_three]
  rfl

/-- The gathered rows flattened: entry \`(bb · 64 + r, d)\` is entry \`(bb, r, d)\`. -/
theorem inCast_apply {α : Type} (y : S48x64x256.Idx → α) (h : S48x64x256.ShapeCasts S3072x256) (bb : Fin 48) (r : Fin 64) (d : Fin 256) :
    shapeCast S3072x256 y h (ix2 (flatRow bb r) d) = y (ix3 bb r d) := by
  refine shapeCast_apply y h (ix2 (flatRow bb r) d) (ix3 bb r d) ?_
  rw [Shape.rowMajor_val_two, Shape.rowMajor_val_three]
  rfl

/-- The first 64 rows of the 128 stacked ones. -/
theorem sliceLo_apply {α : Type} (y : S48x128x256.Idx → α) (h : S48x128x256.Slices ![0, 0, 0] S48x64x256) (bb : Fin 48) (r : Fin 64) (d : Fin 256) :
    extractStridedSlice S48x64x256 ![0, 0, 0] y h (ix3 bb r d) = y (ix3 bb (loRow r) d) :=
  slice3_axis1_apply 0 y h bb r d (loRow r) (Nat.zero_add _).symm

/-- The last 64 rows of the 128 stacked ones. -/
theorem sliceHi_apply {α : Type} (y : S48x128x256.Idx → α) (h : S48x128x256.Slices ![0, 64, 0] S48x64x256) (bb : Fin 48) (r : Fin 64) (d : Fin 256) :
    extractStridedSlice S48x64x256 ![0, 64, 0] y h (ix3 bb r d) = y (ix3 bb (hiRow r) d) :=
  slice3_axis1_apply 64 y h bb r d (hiRow r) rfl

/-- The bias row copied down the 3072 rows. -/
theorem bias_apply {α : Type} (x5 : S1x51.Idx → α) (h1 : S1x51.ShapeCasts S1x51) (h2 : S1x51.Broadcasts S3072x51) (i : Fin 3072) (p : Fin 51) :
    broadcastTo S3072x51 (shapeCast S1x51 x5 h1) h2 (ix2 i p) = x5 (ix2 (0 : Fin 1) p) := by
  rw [shapeCast_self]
  exact broadcastTo_1b_ab_apply x5 h2 i p

/-- Two families stacked along the row axis: a row below 64 is the first family's. -/
theorem stackLo_apply {α : Type} (u v : S48x64x101.Idx → α) (h : Shape.Concatenates [S48x64x101, S48x64x101] S48x128x101 1)
    (bb : Fin 48) (r : Fin 64) (q : Fin 101) :
    concatenate S48x128x101 1 [⟨S48x64x101, u⟩, ⟨S48x64x101, v⟩] h (ix3 bb (loRow r) q) = u (ix3 bb r q) :=
  concatenate_pair_apply_left 1 u v h (ix3 bb (loRow r) q) rfl (ix3 bb r q) (fun b => by
    match b with
    | ⟨0, _⟩ => rfl
    | ⟨1, _⟩ => rfl
    | ⟨2, _⟩ => rfl)

/-- Two families stacked along the row axis: row \`64 + r\` is the second family's row \`r\`. -/
theorem stackHi_apply {α : Type} (u v : S48x64x101.Idx → α) (h : Shape.Concatenates [S48x64x101, S48x64x101] S48x128x101 1)
    (bb : Fin 48) (r : Fin 64) (q : Fin 101) :
    concatenate S48x128x101 1 [⟨S48x64x101, u⟩, ⟨S48x64x101, v⟩] h (ix3 bb (hiRow r) q) = v (ix3 bb r q) :=
  concatenate_pair_apply_right 1 u v h (ix3 bb (hiRow r) q) rfl rfl (ix3 bb r q) (fun b hb => by
    match b, hb with
    | ⟨0, _⟩, _ => rfl
    | ⟨1, _⟩, hb => exact absurd rfl hb
    | ⟨2, _⟩, _ => rfl) (by show r.val + 64 = 64 + r.val; omega)

/-! ## The two products -/

theorem cls_lhs_0 (i : S3072x51.Idx) (q : dot_S3072x256_S51x256_S3072x51_1_1_0_0_n_n.contr.Idx) :
    (dot_S3072x256_S51x256_S3072x51_1_1_0_0_n_n.lhsIdx i q 0).val = (i 0).val := by
  unfold DotDims.lhsIdx
  rw [dif_neg (show ¬(0 : Fin S3072x256.rank) ∈ dot_S3072x256_S51x256_S3072x51_1_1_0_0_n_n.lhsBatch by decide), dif_pos (show (0 : Fin S3072x256.rank) ∈ dot_S3072x256_S51x256_S3072x51_1_1_0_0_n_n.lhsNonContracting by decide)]
  rfl
theorem cls_lhs_1 (i : S3072x51.Idx) (q : dot_S3072x256_S51x256_S3072x51_1_1_0_0_n_n.contr.Idx) :
    (dot_S3072x256_S51x256_S3072x51_1_1_0_0_n_n.lhsIdx i q 1).val = (q ⟨0, by decide⟩).val :=
  dot_S3072x256_S51x256_S3072x51_1_1_0_0_n_n.lhsIdx_val_of_single rfl i q
theorem cls_rhs_0 (i : S3072x51.Idx) (q : dot_S3072x256_S51x256_S3072x51_1_1_0_0_n_n.contr.Idx) :
    (dot_S3072x256_S51x256_S3072x51_1_1_0_0_n_n.rhsIdx i q 0).val = (i 1).val := by
  unfold DotDims.rhsIdx
  rw [dif_neg (show ¬(0 : Fin S51x256.rank) ∈ dot_S3072x256_S51x256_S3072x51_1_1_0_0_n_n.rhsBatch by decide), dif_pos (show (0 : Fin S51x256.rank) ∈ dot_S3072x256_S51x256_S3072x51_1_1_0_0_n_n.rhsNonContracting by decide)]
  rfl
theorem cls_rhs_1 (i : S3072x51.Idx) (q : dot_S3072x256_S51x256_S3072x51_1_1_0_0_n_n.contr.Idx) :
    (dot_S3072x256_S51x256_S3072x51_1_1_0_0_n_n.rhsIdx i q 1).val = (q ⟨0, by decide⟩).val :=
  dot_S3072x256_S51x256_S3072x51_1_1_0_0_n_n.rhsIdx_val_of_single rfl i q

/-- A product of the 3072 gathered rows with the 51 weight rows into a zero accumulator, over the extended reals:
    entry \`(i, p)\` is the sum over the 256 features. -/
theorem classifier_apply (a : FVec Ideal S3072x256 .bf16) (w : FVec Ideal S51x256 .bf16) (i : Fin 3072) (p : Fin 51) :
    matmul dot_S3072x256_S51x256_S3072x51_1_1_0_0_n_n none a w (constant (F := Ideal) S3072x51 .f32 0x00000000#32) (ix2 i p)
      = ∑ d : Fin 256, a (ix2 i d) * w (ix2 p d) := by
  simp only [matmul]
  rw [Ideal.matmul_constant_zero_apply, ← Equiv.sum_comp (ValueIdx.contrEquiv1 dot_S3072x256_S51x256_S3072x51_1_1_0_0_n_n 256 rfl rfl).symm]
  refine Finset.sum_congr rfl fun k _ => ?_
  have hk := ValueIdx.contrEquiv1_symm_val dot_S3072x256_S51x256_S3072x51_1_1_0_0_n_n 256 rfl rfl k
  have el : dot_S3072x256_S51x256_S3072x51_1_1_0_0_n_n.lhsIdx (ix2 i p) ((ValueIdx.contrEquiv1 dot_S3072x256_S51x256_S3072x51_1_1_0_0_n_n 256 rfl rfl).symm k) = ix2 i k := funext fun ax => Fin.ext (by
    match ax with
    | ⟨0, _⟩ => exact cls_lhs_0 _ _
    | ⟨1, _⟩ => exact (cls_lhs_1 _ _).trans hk)
  have er : dot_S3072x256_S51x256_S3072x51_1_1_0_0_n_n.rhsIdx (ix2 i p) ((ValueIdx.contrEquiv1 dot_S3072x256_S51x256_S3072x51_1_1_0_0_n_n 256 rfl rfl).symm k) = ix2 p k := funext fun ax => Fin.ext (by
    match ax with
    | ⟨0, _⟩ => exact cls_rhs_0 _ _
    | ⟨1, _⟩ => exact (cls_rhs_1 _ _).trans hk)
  rw [el, er]

theorem gat_lhs_0 (i : S48x128x256.Idx) (q : dot_S48x128x101_S48x101x256_S48x128x256_2_1_1_2_0_0.contr.Idx) :
    (dot_S48x128x101_S48x101x256_S48x128x256_2_1_1_2_0_0.lhsIdx i q 0).val = (i 0).val := by
  unfold DotDims.lhsIdx
  rw [dif_pos (show (0 : Fin S48x128x101.rank) ∈ dot_S48x128x101_S48x101x256_S48x128x256_2_1_1_2_0_0.lhsBatch by decide)]
  rfl
theorem gat_lhs_1 (i : S48x128x256.Idx) (q : dot_S48x128x101_S48x101x256_S48x128x256_2_1_1_2_0_0.contr.Idx) :
    (dot_S48x128x101_S48x101x256_S48x128x256_2_1_1_2_0_0.lhsIdx i q 1).val = (i 1).val := by
  unfold DotDims.lhsIdx
  rw [dif_neg (show ¬(1 : Fin S48x128x101.rank) ∈ dot_S48x128x101_S48x101x256_S48x128x256_2_1_1_2_0_0.lhsBatch by decide), dif_pos (show (1 : Fin S48x128x101.rank) ∈ dot_S48x128x101_S48x101x256_S48x128x256_2_1_1_2_0_0.lhsNonContracting by decide)]
  rfl
theorem gat_lhs_2 (i : S48x128x256.Idx) (q : dot_S48x128x101_S48x101x256_S48x128x256_2_1_1_2_0_0.contr.Idx) :
    (dot_S48x128x101_S48x101x256_S48x128x256_2_1_1_2_0_0.lhsIdx i q 2).val = (q ⟨0, by decide⟩).val :=
  dot_S48x128x101_S48x101x256_S48x128x256_2_1_1_2_0_0.lhsIdx_val_of_single rfl i q
theorem gat_rhs_0 (i : S48x128x256.Idx) (q : dot_S48x128x101_S48x101x256_S48x128x256_2_1_1_2_0_0.contr.Idx) :
    (dot_S48x128x101_S48x101x256_S48x128x256_2_1_1_2_0_0.rhsIdx i q 0).val = (i 0).val := by
  unfold DotDims.rhsIdx
  rw [dif_pos (show (0 : Fin S48x101x256.rank) ∈ dot_S48x128x101_S48x101x256_S48x128x256_2_1_1_2_0_0.rhsBatch by decide)]
  rfl
theorem gat_rhs_1 (i : S48x128x256.Idx) (q : dot_S48x128x101_S48x101x256_S48x128x256_2_1_1_2_0_0.contr.Idx) :
    (dot_S48x128x101_S48x101x256_S48x128x256_2_1_1_2_0_0.rhsIdx i q 1).val = (q ⟨0, by decide⟩).val :=
  dot_S48x128x101_S48x101x256_S48x128x256_2_1_1_2_0_0.rhsIdx_val_of_single rfl i q
theorem gat_rhs_2 (i : S48x128x256.Idx) (q : dot_S48x128x101_S48x101x256_S48x128x256_2_1_1_2_0_0.contr.Idx) :
    (dot_S48x128x101_S48x101x256_S48x128x256_2_1_1_2_0_0.rhsIdx i q 2).val = (i 2).val := by
  unfold DotDims.rhsIdx
  rw [dif_neg (show ¬(2 : Fin S48x101x256.rank) ∈ dot_S48x128x101_S48x101x256_S48x128x256_2_1_1_2_0_0.rhsBatch by decide), dif_pos (show (2 : Fin S48x101x256.rank) ∈ dot_S48x128x101_S48x101x256_S48x128x256_2_1_1_2_0_0.rhsNonContracting by decide)]
  rfl

/-- The image-by-image product of the 128 stacked rows with the slab into a zero accumulator, over the extended reals:
    entry \`(bb, m, d)\` is the sum over the slab's 101 rows. -/
theorem gather_apply (a : FVec Ideal S48x128x101 .bf16) (b : FVec Ideal S48x101x256 .bf16) (bb : Fin 48) (m : Fin 128) (d : Fin 256) :
    matmul dot_S48x128x101_S48x101x256_S48x128x256_2_1_1_2_0_0 none a b (constant (F := Ideal) S48x128x256 .f32 0x00000000#32) (ix3 bb m d)
      = ∑ q : Fin 101, a (ix3 bb m q) * b (ix3 bb q d) := by
  simp only [matmul]
  rw [Ideal.matmul_constant_zero_apply, ← Equiv.sum_comp (ValueIdx.contrEquiv1 dot_S48x128x101_S48x101x256_S48x128x256_2_1_1_2_0_0 101 rfl rfl).symm]
  refine Finset.sum_congr rfl fun k _ => ?_
  have hk := ValueIdx.contrEquiv1_symm_val dot_S48x128x101_S48x101x256_S48x128x256_2_1_1_2_0_0 101 rfl rfl k
  have el : dot_S48x128x101_S48x101x256_S48x128x256_2_1_1_2_0_0.lhsIdx (ix3 bb m d) ((ValueIdx.contrEquiv1 dot_S48x128x101_S48x101x256_S48x128x256_2_1_1_2_0_0 101 rfl rfl).symm k) = ix3 bb m k := funext fun ax => Fin.ext (by
    match ax with
    | ⟨0, _⟩ => exact gat_lhs_0 _ _
    | ⟨1, _⟩ => exact gat_lhs_1 _ _
    | ⟨2, _⟩ => exact (gat_lhs_2 _ _).trans hk)
  have er : dot_S48x128x101_S48x101x256_S48x128x256_2_1_1_2_0_0.rhsIdx (ix3 bb m d) ((ValueIdx.contrEquiv1 dot_S48x128x101_S48x101x256_S48x128x256_2_1_1_2_0_0 101 rfl rfl).symm k) = ix3 bb k d := funext fun ax => Fin.ext (by
    match ax with
    | ⟨0, _⟩ => exact gat_rhs_0 _ _
    | ⟨1, _⟩ => exact (gat_rhs_1 _ _).trans hk
    | ⟨2, _⟩ => exact gat_rhs_2 _ _)
  rw [el, er]

/-! ## The one-hot rows -/

/-- The word of a slot, copied along the 101 positions. -/
theorem slotBroadcast_apply (x : IVec S48x64 32) (h0 : S48x64.ShapeCasts S48x64) (h1 : S48x64.ShapeCasts S48x64x1)
    (h2 : S48x64x1.Broadcasts S48x64x101) (bb : Fin 48) (r : Fin 64) (q : Fin 101) :
    broadcastTo S48x64x101 (shapeCast S48x64x1 (shapeCast S48x64 x h0) h1) h2 (ix3 bb r q) = x (ix2 bb r) := by
  rw [shapeCast_self]
  refine (broadcastTo_apply _ h2 (ix3 bb r q) (ix3 bb r (0 : Fin 1)) (fun ax => by
    match ax with
    | ⟨0, _⟩ => rfl
    | ⟨1, _⟩ => rfl
    | ⟨2, _⟩ => rfl)).trans ?_
  refine shapeCast_apply x h1 (ix3 bb r (0 : Fin 1)) (ix2 bb r) ?_
  rw [Shape.rowMajor_val_two, Shape.rowMajor_val_three]
  show bb.val * 64 + r.val = (bb.val * 64 + r.val) * 1 + 0
  omega

/-- The bit "position \`q\` is the word \`x\`", widened to 32 bits and read as a signed integer into the extended reals:
    \`1\` when the word's value is \`q\`, \`0\` otherwise. -/
theorem bitToFloat (q : Fin 101) (x : BitVec 32) (hx : x.toNat < 101) :
    ((((IntOp.cmpi .eq (BitVec.ofNat 32 q.val) x).setWidth 32).toInt : ℝ) : EReal)
      = if q = Cert.Spec.rowOf x then (1 : EReal) else 0 := by
  by_cases hq : BitVec.ofNat 32 q.val = x
  · have hc : IntOp.cmpi .eq (BitVec.ofNat 32 q.val) x = 1#1 := StableHlo.Predicate.cmpi_eq_iff.mpr hq
    have hqr : q = Cert.Spec.rowOf x := by
      apply Fin.ext
      rw [Cert.Spec.rowOf_val hx, ← hq, BitVec.toNat_ofNat]
      have := q.isLt
      omega
    rw [hc, if_pos hqr]
    show (((1 : Int) : ℝ) : EReal) = 1
    norm_num
  · have hc : IntOp.cmpi .eq (BitVec.ofNat 32 q.val) x = 0#1 :=
      eq_zero_of_ne_one (fun h => hq (StableHlo.Predicate.cmpi_eq_iff.mp h))
    have hqr : ¬ q = Cert.Spec.rowOf x := by
      intro h
      apply hq
      have hv : q.val = x.toNat := by rw [h, Cert.Spec.rowOf_val hx]
      rw [hv, BitVec.ofNat_toNat, BitVec.setWidth_eq]
    rw [hc, if_neg hqr]
    show (((0 : Int) : ℝ) : EReal) = 0
    norm_num

/-- One family of one-hot rows at \`(bb, r, q)\`. -/
theorem onehot_apply (x : IVec S48x64 32) (h0 : S48x64.ShapeCasts S48x64) (h1 : S48x64.ShapeCasts S48x64x1)
    (h2 : S48x64x1.Broadcasts S48x64x101) (hi : S48x64x101.Iotas .tc 32 [2]) (hw : 1 < 32) (hb : FTy.bits .bf16 < FTy.bits .f32)
    (bb : Fin 48) (r : Fin 64) (q : Fin 101) (hx : (x (ix2 bb r)).toNat < 101) :
    (truncf .bf16 (sitofp (F := Ideal) .f32 (extui 32 (cmpi .eq (iota .tc S48x64x101 32 [2] hi)
        (broadcastTo S48x64x101 (shapeCast S48x64x1 (shapeCast S48x64 x h0) h1) h2)) hw)) hb : FVec Ideal S48x64x101 .bf16) (ix3 bb r q)
      = if q = Cert.Spec.rowOf (x (ix2 bb r)) then (1 : EReal) else 0 := by
  refine Eq.trans ?_ (bitToFloat q (x (ix2 bb r)) hx)
  show ((((IntOp.cmpi .eq (iota .tc S48x64x101 32 [2] hi (ix3 bb r q))
      (broadcastTo S48x64x101 (shapeCast S48x64x1 (shapeCast S48x64 x h0) h1) h2 (ix3 bb r q))).setWidth 32).toInt : ℝ) : EReal) = _
  rw [slotBroadcast_apply x h0 h1 h2 bb r q, iota_single_apply .tc S48x64x101 32 2 hi (ix3 bb r q)]

/-! ## The gathered rows -/

/-- A float array kept in place and narrowed reads, over the extended reals, as the array itself. -/
theorem narrowSelf_apply {s : Shape} (x : FVec Ideal s .f32) (h : s.ShapeCasts s) (hb : FTy.bits .bf16 < FTy.bits .f32) (i : s.Idx) :
    (truncf .bf16 (shapeCast s x h) hb : FVec Ideal s .bf16) i = x i := by
  rw [shapeCast_self]
  rfl

/-- A float array narrowed reads, over the extended reals, as the array itself. -/
theorem narrow_apply {s : Shape} (y : FVec Ideal s .f32) (hb : FTy.bits .bf16 < FTy.bits .f32) (i : s.Idx) :
    (truncf .bf16 y hb : FVec Ideal s .bf16) i = y i := rfl

/-- Row \`r\` of the stacked product: when the first family's row \`(bb, r)\` is the one-hot row of \`k\`, the product's
    row is the slab's row \`k\`. -/
theorem gatherLo_apply (x0 : FVec Ideal S48x101x256 .f32) (h : S48x101x256.ShapeCasts S48x101x256) (hb : FTy.bits .bf16 < FTy.bits .f32)
    (u v : FVec Ideal S48x64x101 .bf16) (hc : Shape.Concatenates [S48x64x101, S48x64x101] S48x128x101 1)
    (bb : Fin 48) (r : Fin 64) (d : Fin 256) (k : Fin 101)
    (hu : ∀ q : Fin 101, u (ix3 bb r q) = if q = k then (1 : EReal) else 0) :
    matmul dot_S48x128x101_S48x101x256_S48x128x256_2_1_1_2_0_0 none
        (concatenate S48x128x101 1 [⟨S48x64x101, u⟩, ⟨S48x64x101, v⟩] hc)
        (truncf .bf16 (shapeCast S48x101x256 x0 h) hb) (constant (F := Ideal) S48x128x256 .f32 0x00000000#32) (ix3 bb (loRow r) d)
      = x0 (ix3 bb k d) := by
  refine (gather_apply _ _ bb (loRow r) d).trans ?_
  refine Eq.trans (Finset.sum_congr rfl fun q _ => ?_) (Cert.Spec.sum_onehot 101 k (fun q => x0 (ix3 bb q d)))
  exact congrArg₂ (· * ·) ((stackLo_apply u v hc bb r q).trans (hu q)) (narrowSelf_apply x0 h hb (ix3 bb q d))

/-- Row \`64 + r\` of the stacked product: when the second family's row \`(bb, r)\` is the one-hot row of \`k\`, the
    product's row is the slab's row \`k\`. -/
theorem gatherHi_apply (x0 : FVec Ideal S48x101x256 .f32) (h : S48x101x256.ShapeCasts S48x101x256) (hb : FTy.bits .bf16 < FTy.bits .f32)
    (u v : FVec Ideal S48x64x101 .bf16) (hc : Shape.Concatenates [S48x64x101, S48x64x101] S48x128x101 1)
    (bb : Fin 48) (r : Fin 64) (d : Fin 256) (k : Fin 101)
    (hv : ∀ q : Fin 101, v (ix3 bb r q) = if q = k then (1 : EReal) else 0) :
    matmul dot_S48x128x101_S48x101x256_S48x128x256_2_1_1_2_0_0 none
        (concatenate S48x128x101 1 [⟨S48x64x101, u⟩, ⟨S48x64x101, v⟩] hc)
        (truncf .bf16 (shapeCast S48x101x256 x0 h) hb) (constant (F := Ideal) S48x128x256 .f32 0x00000000#32) (ix3 bb (hiRow r) d)
      = x0 (ix3 bb k d) := by
  refine (gather_apply _ _ bb (hiRow r) d).trans ?_
  refine Eq.trans (Finset.sum_congr rfl fun q _ => ?_) (Cert.Spec.sum_onehot 101 k (fun q => x0 (ix3 bb q d)))
  exact congrArg₂ (· * ·) ((stackHi_apply u v hc bb r q).trans (hv q)) (narrowSelf_apply x0 h hb (ix3 bb q d))

end Cert.KernelIdeal.Hand

end
-- ==== Proof.KPayload.lean ====
/-
  What one grid step stores, entry by entry.

  The body builds, for each of its 48 images and 64 relations, a one-hot row over the slab's 101 rows for the
  subject's slot and one for the object's (`iota == slot`, widened to a float 0 or 1), stacks the two families
  along the row axis and multiplies the stack with the image's slab: row `r` of the product is the slab's row
  `subject slot`, row `64 + r` the slab's row `object slot`. It then contracts the two gathered rows with the two
  halves of the weights and adds the bias. Read over the extended reals, where a change of float format is the
  identity and a product into a zero accumulator is a plain sum, entry `(bb, r, p)` of the stored block is

    ∑_d x0[bb, slot_s, d] · w1[p, d] + ∑_d x0[bb, slot_o, d] · w2[p, d] + bias[0, p]

  whenever the two slot words are rows (`toNat < 101`): a one-hot sum keeps its one term.
-/
import proofs.«415238_j44624710205890_2_alg».proof.Proof.Gen.KernelIdeal.Skeleton
import proofs.«415238_j44624710205890_2_alg».proof.Proof.Spec
import proofs.«415238_j44624710205890_2_alg».proof.Proof.KPayloadAux
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.KernelIdeal.Gen

/-- The stored block at `(bb, r, p)`. -/
theorem payload_at (x0 : FVec Ideal S48x101x256 .f32) (x1 x2 : IVec S48x64 32) (x3 x4 : FVec Ideal S51x256 .f32)
    (x5 : FVec Ideal S1x51 .f32) (bb : Fin 48) (r : Fin 64) (p : Fin 51)
    (h1 : (x1 (ix2 bb r)).toNat < 101) (h2 : (x2 (ix2 bb r)).toNat < 101) :
    k0_pay1 (F := Ideal) x0 x1 x2 x3 x4 x5 (ix3 bb r p)
      = (∑ d : Fin 256, x0 (ix3 bb (Cert.Spec.rowOf (x1 (ix2 bb r))) d) * x3 (ix2 p d))
        + (∑ d : Fin 256, x0 (ix3 bb (Cert.Spec.rowOf (x2 (ix2 bb r))) d) * x4 (ix2 p d))
        + x5 (ix2 (0 : Fin 1) p) := by
  unfold k0_pay1
  -- the stored block is the flattened result, seen image by image
  refine (outCast_apply _ _ bb r p).trans ?_
  -- the bias row is added last
  refine (addf_apply _ _ _).trans ?_
  refine congrArg₂ (· + ·) ?_ (bias_apply x5 _ _ (flatRow bb r) p)
  -- the two classifier products are added
  refine (addf_apply _ _ _).trans ?_
  refine congrArg₂ (· + ·) ?_ ?_
  · -- the subject's half: the gathered row is the slab's row named by the subject's slot
    refine (classifier_apply _ _ (flatRow bb r) p).trans ?_
    refine Finset.sum_congr rfl fun d _ => ?_
    refine congrArg₂ (· * ·) ?_ (narrowSelf_apply x3 _ _ (ix2 p d))
    refine (inCast_apply _ _ bb r d).trans ?_
    refine (narrow_apply _ _ _).trans ?_
    refine (sliceLo_apply _ _ bb r d).trans ?_
    exact gatherLo_apply x0 _ _ _ _ _ bb r d _ (fun q => onehot_apply x1 _ _ _ _ _ _ bb r q h1)
  · -- the object's half: the same with the second family of one-hot rows
    refine (classifier_apply _ _ (flatRow bb r) p).trans ?_
    refine Finset.sum_congr rfl fun d _ => ?_
    refine congrArg₂ (· * ·) ?_ (narrowSelf_apply x4 _ _ (ix2 p d))
    refine (inCast_apply _ _ bb r d).trans ?_
    refine (narrow_apply _ _ _).trans ?_
    refine (sliceHi_apply _ _ bb r d).trans ?_
    exact gatherHi_apply x0 _ _ _ _ _ bb r d _ (fun q => onehot_apply x2 _ _ _ _ _ _ bb r q h2)

end Cert.KernelIdeal.Hand

end
-- ==== Proof.Rows.lean ====
/-
  The flattened layout. The kernel sees the (layer, image) pairs as one axis of 6 · 256 = 1536 rows,
  image `(l, b)` being row `l · 256 + b` (a row-major reshape); it walks that axis in 32 blocks of 48 rows.
  `logitsFlat` is the specification's formula read in that layout.
-/
import proofs.«415238_j44624710205890_2_alg».proof.Proof.Spec

noncomputable section

namespace Cert.Spec

open Idealize.ShloMosaic Idealize.ShloMosaic.ValueIdx

/-- Image `(l, b)` as a row of the flattened axis. -/
def img (l : Fin 6) (b : Fin 256) : Fin 1536 := ⟨l.val * 256 + b.val, by have := l.isLt; have := b.isLt; omega⟩
/-- The layer of a flattened row. -/
def layerOf (n : Fin 1536) : Fin 6 := ⟨n.val / 256, by have := n.isLt; omega⟩
/-- The image, within its layer, of a flattened row. -/
def imageOf (n : Fin 1536) : Fin 256 := ⟨n.val % 256, Nat.mod_lt _ (by decide)⟩

theorem img_val (l : Fin 6) (b : Fin 256) : (img l b).val = l.val * 256 + b.val := rfl
theorem layerOf_img (l : Fin 6) (b : Fin 256) : layerOf (img l b) = l := by
  apply Fin.ext; show (l.val * 256 + b.val) / 256 = l.val; have := b.isLt; omega
theorem imageOf_img (l : Fin 6) (b : Fin 256) : imageOf (img l b) = b := by
  apply Fin.ext; show (l.val * 256 + b.val) % 256 = b.val; have := b.isLt; omega
theorem img_layerOf_imageOf (n : Fin 1536) : img (layerOf n) (imageOf n) = n := by
  apply Fin.ext; show n.val / 256 * 256 + n.val % 256 = n.val; omega

/-- The logits in the flattened layout `[1536, 64, 51]`. -/
def logitsFlat (hs : SHs.Idx → EReal) (W : SW.Idx → EReal) (bias : SB.Idx → EReal) (qs qo : SQ.Idx → BitVec 32) :
    (⟨3, ![1536, 64, 51]⟩ : Shape).Idx → EReal :=
  fun i => logitAt hs W bias qs qo (layerOf ⟨(i 0).val, (i 0).isLt⟩) (imageOf ⟨(i 0).val, (i 0).isLt⟩)
    ⟨(i 1).val, (i 1).isLt⟩ ⟨(i 2).val, (i 2).isLt⟩

theorem logitsFlat_ix3 (hs : SHs.Idx → EReal) (W : SW.Idx → EReal) (bias : SB.Idx → EReal) (qs qo : SQ.Idx → BitVec 32)
    (n : Fin 1536) (r : Fin 64) (p : Fin 51) :
    logitsFlat hs W bias qs qo (ix3 n r p) = logitAt hs W bias qs qo (layerOf n) (imageOf n) r p := rfl

end Cert.Spec

end
-- ==== Proof.KProlog.lean ====
/-
  The arrays the region finds, read at an index.

  Before the region @main reshapes `hs` to `[1536, 101, 256]` (image `(l, b)` becomes row `l · 256 + b`), cuts the
  weights into their two halves, reshapes the bias to `[1, 51]`, and resolves the subject's and the object's query
  slots by the same scatter and two look-ups as the reference, then clamps each slot into `[0, 100]` and reshapes
  the slot arrays to `[1536, 64]`. Where a resolved slot is a row already, the clamp leaves it as it is.
-/
import proofs.«415238_j44624710205890_2_alg».proof.Proof.Gen.KernelIdeal.Frame
import proofs.«415238_j44624710205890_2_alg».proof.Proof.RefStages
import proofs.«415238_j44624710205890_2_alg».proof.Proof.Rows
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

-- running 148 host operations in order nests one step per operation
set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ)

open Idealize.ShloMosaic.StableHlo

/-! ## The resolved slots are the reference's

The host operations that resolve the slots (the scatter that builds the look-up table and the two look-ups, each
with its wrap of a negative index, its range test and its fill) are the same operations, in the same order, as the
reference's. Run in order over the launched arguments they leave the same composed term as the reference's stages,
which unfold one by one to it: the two sides then differ only in how a reshape and a buffer's type are spelled. -/

/-- A two-piece `concatenate` with its pieces as plain arguments: the shape fact no longer depends on the pieces, so
    both pieces can be rewritten in place. -/
def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

theorem concatenate_two {α : Type} (t : Shape) (a : Fin t.rank) (s₁ s₂ : Shape) (x : s₁.Idx → α) (y : s₂.Idx → α)
    (h : Shape.Concatenates [s₁, s₂] t a) : concatenate t a [⟨s₁, x⟩, ⟨s₂, y⟩] h = concat2 t a s₁ s₂ x y h := rfl

section AnyFloat
variable {F : FTy → Type} [FloatOps F] (mF : (ℓ : Loc nD τ sig) → Buf (Elt F) ℓ)

set_option maxRecDepth 65536 in
set_option maxHeartbeats 8000000 in
/-- The subject's slots before the clamp are the reference's, whatever the float values are (the slots are integer
    words throughout). -/
theorem V_q_sub_any (c : Dev nD) : (V mF c main_v29 : S6x256x64.Idx → BitVec 32)
    = Cert.ReferenceIdeal.Stages.val_main_v29 (F := F) (mF ((c.tc : Thread nD τ).loc main_arg1)) (mF ((c.tc : Thread nD τ).loc main_arg2))
        (mF ((c.tc : Thread nD τ).loc main_arg3)) := by
  dsimp only [Gen.V, Gen.V0]
  simp (disch := decide) only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil, List.cons_append,
    List.nil_append, TRef.toBuf, TRef.ofBuf, cast_eq, concatenate_two, after_cons, after_nil,
    nullary_result', unary_result', binary_result', ternary_result', quaternary_result', reshape_result', nary4_result',
    nary_result', unaryIndexed_result', binaryIndexed_result', nullary_result_ne', unary_result_ne', binary_result_ne', ternary_result_ne',
    quaternary_result_ne', reshape_result_ne', nary_result_ne', unaryIndexed_result_ne', binaryIndexed_result_ne',
    Cert.ReferenceIdeal.Stages.val_main_v0, Cert.ReferenceIdeal.Stages.val_main_v1, Cert.ReferenceIdeal.Stages.val_main_v2, Cert.ReferenceIdeal.Stages.val_main_c, Cert.ReferenceIdeal.Stages.val_main_v3,
    Cert.ReferenceIdeal.Stages.val_main_v4, Cert.ReferenceIdeal.Stages.val_main_v5, Cert.ReferenceIdeal.Stages.val_main_c_0, Cert.ReferenceIdeal.Stages.val_main_v6, Cert.ReferenceIdeal.Stages.val_main_v7,
    Cert.ReferenceIdeal.Stages.val_main_c_1, Cert.ReferenceIdeal.Stages.val_main_v8, Cert.ReferenceIdeal.Stages.val_main_v9, Cert.ReferenceIdeal.Stages.val_main_v10, Cert.ReferenceIdeal.Stages.val_main_c_2,
    Cert.ReferenceIdeal.Stages.val_main_v11, Cert.ReferenceIdeal.Stages.val_main_v12, Cert.ReferenceIdeal.Stages.val_main_c_3, Cert.ReferenceIdeal.Stages.val_main_v13, Cert.ReferenceIdeal.Stages.val_main_v14,
    Cert.ReferenceIdeal.Stages.val_main_v15, Cert.ReferenceIdeal.Stages.val_main_v16, Cert.ReferenceIdeal.Stages.val_main_v17, Cert.ReferenceIdeal.Stages.val_main_v18, Cert.ReferenceIdeal.Stages.val_main_v19,
    Cert.ReferenceIdeal.Stages.val_main_v20, Cert.ReferenceIdeal.Stages.val_main_v21, Cert.ReferenceIdeal.Stages.val_main_v22, Cert.ReferenceIdeal.Stages.val_main_v23, Cert.ReferenceIdeal.Stages.val_main_v24,
    Cert.ReferenceIdeal.Stages.val_main_v25, Cert.ReferenceIdeal.Stages.val_main_v26, Cert.ReferenceIdeal.Stages.val_main_v27, Cert.ReferenceIdeal.Stages.val_main_call0_c, Cert.ReferenceIdeal.Stages.val_main_call0_v0,
    Cert.ReferenceIdeal.Stages.val_main_call0_v1, Cert.ReferenceIdeal.Stages.val_main_call0_c_0, Cert.ReferenceIdeal.Stages.val_main_call0_v2, Cert.ReferenceIdeal.Stages.val_main_call0_v3,
    Cert.ReferenceIdeal.Stages.val_main_call0_v4, Cert.ReferenceIdeal.Stages.val_main_call0_v5, Cert.ReferenceIdeal.Stages.val_main_call0_c_1, Cert.ReferenceIdeal.Stages.val_main_call0_c_2,
    Cert.ReferenceIdeal.Stages.val_main_call0_v6, Cert.ReferenceIdeal.Stages.val_main_call0_v7, Cert.ReferenceIdeal.Stages.val_main_call0_v8, Cert.ReferenceIdeal.Stages.val_main_call0_v9,
    Cert.ReferenceIdeal.Stages.val_main_call0_v10, Cert.ReferenceIdeal.Stages.val_main_call0_v11, Cert.ReferenceIdeal.Stages.val_main_call0_c_3, Cert.ReferenceIdeal.Stages.val_main_call0_v12,
    Cert.ReferenceIdeal.Stages.val_main_call0_v13, Cert.ReferenceIdeal.Stages.val_main_call0_c_4, Cert.ReferenceIdeal.Stages.val_main_call0_v14, Cert.ReferenceIdeal.Stages.val_main_v28,
    Cert.ReferenceIdeal.Stages.val_main_call1_c, Cert.ReferenceIdeal.Stages.val_main_call1_v0, Cert.ReferenceIdeal.Stages.val_main_call1_v1, Cert.ReferenceIdeal.Stages.val_main_call1_c_0,
    Cert.ReferenceIdeal.Stages.val_main_call1_v2, Cert.ReferenceIdeal.Stages.val_main_call1_v3, Cert.ReferenceIdeal.Stages.val_main_call1_v4, Cert.ReferenceIdeal.Stages.val_main_call1_v5,
    Cert.ReferenceIdeal.Stages.val_main_call1_c_1, Cert.ReferenceIdeal.Stages.val_main_call1_c_2, Cert.ReferenceIdeal.Stages.val_main_call1_v6, Cert.ReferenceIdeal.Stages.val_main_call1_v7,
    Cert.ReferenceIdeal.Stages.val_main_call1_v8, Cert.ReferenceIdeal.Stages.val_main_call1_v9, Cert.ReferenceIdeal.Stages.val_main_call1_v10, Cert.ReferenceIdeal.Stages.val_main_call1_v11,
    Cert.ReferenceIdeal.Stages.val_main_call1_c_3, Cert.ReferenceIdeal.Stages.val_main_call1_v12, Cert.ReferenceIdeal.Stages.val_main_call1_v13, Cert.ReferenceIdeal.Stages.val_main_call1_c_4,
    Cert.ReferenceIdeal.Stages.val_main_call1_v14, Cert.ReferenceIdeal.Stages.val_main_v29]
  rfl

set_option maxRecDepth 65536 in
set_option maxHeartbeats 8000000 in
/-- The object's slots before the clamp are the reference's. -/
theorem V_q_obj_any (c : Dev nD) : (V mF c main_v35 : S6x256x64.Idx → BitVec 32)
    = Cert.ReferenceIdeal.Stages.val_main_v35 (F := F) (mF ((c.tc : Thread nD τ).loc main_arg1)) (mF ((c.tc : Thread nD τ).loc main_arg2))
        (mF ((c.tc : Thread nD τ).loc main_arg3)) := by
  dsimp only [Gen.V, Gen.V0]
  simp (disch := decide) only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil, List.cons_append,
    List.nil_append, TRef.toBuf, TRef.ofBuf, cast_eq, concatenate_two, after_cons, after_nil,
    nullary_result', unary_result', binary_result', ternary_result', quaternary_result', reshape_result', nary4_result',
    nary_result', unaryIndexed_result', binaryIndexed_result', nullary_result_ne', unary_result_ne', binary_result_ne', ternary_result_ne',
    quaternary_result_ne', reshape_result_ne', nary_result_ne', unaryIndexed_result_ne', binaryIndexed_result_ne',
    Cert.ReferenceIdeal.Stages.val_main_v0, Cert.ReferenceIdeal.Stages.val_main_v1, Cert.ReferenceIdeal.Stages.val_main_v2, Cert.ReferenceIdeal.Stages.val_main_c, Cert.ReferenceIdeal.Stages.val_main_v3,
    Cert.ReferenceIdeal.Stages.val_main_v4, Cert.ReferenceIdeal.Stages.val_main_v5, Cert.ReferenceIdeal.Stages.val_main_c_0, Cert.ReferenceIdeal.Stages.val_main_v6, Cert.ReferenceIdeal.Stages.val_main_v7,
    Cert.ReferenceIdeal.Stages.val_main_c_1, Cert.ReferenceIdeal.Stages.val_main_v8, Cert.ReferenceIdeal.Stages.val_main_v9, Cert.ReferenceIdeal.Stages.val_main_v10, Cert.ReferenceIdeal.Stages.val_main_c_2,
    Cert.ReferenceIdeal.Stages.val_main_v11, Cert.ReferenceIdeal.Stages.val_main_v12, Cert.ReferenceIdeal.Stages.val_main_c_3, Cert.ReferenceIdeal.Stages.val_main_v13, Cert.ReferenceIdeal.Stages.val_main_v14,
    Cert.ReferenceIdeal.Stages.val_main_v15, Cert.ReferenceIdeal.Stages.val_main_v16, Cert.ReferenceIdeal.Stages.val_main_v17, Cert.ReferenceIdeal.Stages.val_main_v18, Cert.ReferenceIdeal.Stages.val_main_v19,
    Cert.ReferenceIdeal.Stages.val_main_v20, Cert.ReferenceIdeal.Stages.val_main_v21, Cert.ReferenceIdeal.Stages.val_main_v25, Cert.ReferenceIdeal.Stages.val_main_v32, Cert.ReferenceIdeal.Stages.val_main_v33,
    Cert.ReferenceIdeal.Stages.val_main_call3_c, Cert.ReferenceIdeal.Stages.val_main_call3_v0, Cert.ReferenceIdeal.Stages.val_main_call3_v1, Cert.ReferenceIdeal.Stages.val_main_call3_c_0,
    Cert.ReferenceIdeal.Stages.val_main_call3_v2, Cert.ReferenceIdeal.Stages.val_main_call3_v3, Cert.ReferenceIdeal.Stages.val_main_call3_v4, Cert.ReferenceIdeal.Stages.val_main_call3_v5,
    Cert.ReferenceIdeal.Stages.val_main_call3_c_1, Cert.ReferenceIdeal.Stages.val_main_call3_c_2, Cert.ReferenceIdeal.Stages.val_main_call3_v6, Cert.ReferenceIdeal.Stages.val_main_call3_v7,
    Cert.ReferenceIdeal.Stages.val_main_call3_v8, Cert.ReferenceIdeal.Stages.val_main_call3_v9, Cert.ReferenceIdeal.Stages.val_main_call3_v10, Cert.ReferenceIdeal.Stages.val_main_call3_v11,
    Cert.ReferenceIdeal.Stages.val_main_call3_c_3, Cert.ReferenceIdeal.Stages.val_main_call3_v12, Cert.ReferenceIdeal.Stages.val_main_call3_v13, Cert.ReferenceIdeal.Stages.val_main_call3_c_4,
    Cert.ReferenceIdeal.Stages.val_main_call3_v14, Cert.ReferenceIdeal.Stages.val_main_v34, Cert.ReferenceIdeal.Stages.val_main_call4_c, Cert.ReferenceIdeal.Stages.val_main_call4_v0,
    Cert.ReferenceIdeal.Stages.val_main_call4_v1, Cert.ReferenceIdeal.Stages.val_main_call4_c_0, Cert.ReferenceIdeal.Stages.val_main_call4_v2, Cert.ReferenceIdeal.Stages.val_main_call4_v3,
    Cert.ReferenceIdeal.Stages.val_main_call4_v4, Cert.ReferenceIdeal.Stages.val_main_call4_v5, Cert.ReferenceIdeal.Stages.val_main_call4_c_1, Cert.ReferenceIdeal.Stages.val_main_call4_c_2,
    Cert.ReferenceIdeal.Stages.val_main_call4_v6, Cert.ReferenceIdeal.Stages.val_main_call4_v7, Cert.ReferenceIdeal.Stages.val_main_call4_v8, Cert.ReferenceIdeal.Stages.val_main_call4_v9,
    Cert.ReferenceIdeal.Stages.val_main_call4_v10, Cert.ReferenceIdeal.Stages.val_main_call4_v11, Cert.ReferenceIdeal.Stages.val_main_call4_c_3, Cert.ReferenceIdeal.Stages.val_main_call4_v12,
    Cert.ReferenceIdeal.Stages.val_main_call4_v13, Cert.ReferenceIdeal.Stages.val_main_call4_c_4, Cert.ReferenceIdeal.Stages.val_main_call4_v14, Cert.ReferenceIdeal.Stages.val_main_v35]
  rfl

end AnyFloat

/-- The subject's resolved slots, as the reference's stages compute them from the kernel's own arguments. -/
abbrev Qs (c : Dev nD) : Cert.Spec.SQ.Idx → BitVec 32 :=
  Cert.ReferenceIdeal.Stages.val_main_v29 (F := Ideal) (m ((c.tc : Thread nD τ).loc main_arg1)) (m ((c.tc : Thread nD τ).loc main_arg2)) (m ((c.tc : Thread nD τ).loc main_arg3))
/-- The object's resolved slots. -/
abbrev Qo (c : Dev nD) : Cert.Spec.SQ.Idx → BitVec 32 :=
  Cert.ReferenceIdeal.Stages.val_main_v35 (F := Ideal) (m ((c.tc : Thread nD τ).loc main_arg1)) (m ((c.tc : Thread nD τ).loc main_arg2)) (m ((c.tc : Thread nD τ).loc main_arg3))

/-! ## The four arrays that are one layout operation away from an argument

Each is written by a single host operation whose operand is an argument no host operation writes: running the host
operations in order leaves the operation's term over the launched argument. -/

/-- The hidden states the region finds are the launched ones, reshaped. -/
theorem V_hs_eq (c : Dev nD) :
    (V m c main_v38 : S1536x101x256.Idx → EReal)
      = shapeCast S1536x101x256 (m ((c.tc : Thread nD τ).loc main_arg0) : S6x256x101x256.Idx → EReal)
          Facts₀.shapeCasts_S6x256x101x256_S1536x101x256 := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  after_results_simp
  rfl

/-- The first weight array the region finds is the slice of the launched weights at column offset 0. -/
theorem V_w1_eq (c : Dev nD) :
    (V m c main_v39 : S51x256.Idx → EReal)
      = extractStridedSlice S51x256 ![0, 0] (m ((c.tc : Thread nD τ).loc main_arg4) : S51x512.Idx → EReal)
          Facts₀.slices_S51x512_S51x256_0_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  after_results_simp

/-- The second weight array the region finds is the slice of the launched weights at column offset 256. -/
theorem V_w2_eq (c : Dev nD) :
    (V m c main_v40 : S51x256.Idx → EReal)
      = extractStridedSlice S51x256 ![0, 256] (m ((c.tc : Thread nD τ).loc main_arg4) : S51x512.Idx → EReal)
          Facts₀.slices_S51x512_S51x256_0_256 := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  after_results_simp

/-- The bias array the region finds is the launched bias, reshaped. -/
theorem V_bias_eq (c : Dev nD) :
    (V m c main_v41 : S1x51.Idx → EReal)
      = shapeCast S1x51 (m ((c.tc : Thread nD τ).loc main_arg5) : S51.Idx → EReal) Facts₀.shapeCasts_S51_S1x51 := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  after_results_simp
  rfl

/-- Row `l · 256 + b` of the reshaped hidden states is image `(l, b)`'s slab. -/
theorem V_hs_at (c : Dev nD) (l : Fin 6) (b : Fin 256) (q : Fin 101) (d : Fin 256) :
    (V m c main_v38 : S1536x101x256.Idx → EReal) (ix3 (img l b) q d)
      = (m ((c.tc : Thread nD τ).loc main_arg0) : S6x256x101x256.Idx → EReal) (ix4 l b q d) := by
  refine (congrFun (V_hs_eq m c) _).trans ?_
  -- both indices sit at row-major position ((l · 256 + b) · 101 + q) · 256 + d
  refine shapeCast_apply _ _ _ (ix4 l b q d) ?_
  rewrite [Shape.rowMajor_val_four, Shape.rowMajor_val_three]
  show ((l.val * 256 + b.val) * 101 + q.val) * 256 + d.val = ((l.val * 256 + b.val) * 101 + q.val) * 256 + d.val
  rfl

/-! ## The clamp

Between the look-ups and the region each slot is clamped into `[0, 100]` and the slot array reshaped to `[1536, 64]`.
A word whose value is a row of the 101-row slab is neither negative nor above 100, so the clamp returns it. -/

theorem V_q_sub (c : Dev nD) : (V m c main_v29 : S6x256x64.Idx → BitVec 32) = Qs m c := V_q_sub_any m c

theorem V_q_obj (c : Dev nD) : (V m c main_v35 : S6x256x64.Idx → BitVec 32) = Qo m c := V_q_obj_any m c

/-- The clamp to `[0, 100]` as the host program spells it: the signed maximum with a broadcast 0, then the signed
    minimum with a broadcast 100. -/
def clip (x : S6x256x64.Idx → BitVec 32) : S6x256x64.Idx → BitVec 32 :=
  minsi (broadcastInDim S6x256x64 ![] Facts₀.bcast_S_S6x256x64 (id (constantI S_ 32 100#32) : S_.Idx → BitVec 32))
    (maxsi (broadcastInDim S6x256x64 ![] Facts₀.bcast_S_S6x256x64 (id (constantI S_ 32 0#32) : S_.Idx → BitVec 32)) x)

/-- A word whose value is a row of the 101-row slab is its own clamp: read as a signed number it is its value, which is
    not below 0 and not above 100. -/
theorem clip_word (w : BitVec 32) (h : w.toNat < 101) : IntOp.minsi 100#32 (IntOp.maxsi 0#32 w) = w := by
  have hti : w.toInt = w.toNat := Predicate.toInt_eq_toNat_of_lt (by omega)
  have h0 : (0#32 : BitVec 32).toInt = 0 := by decide
  have h100 : (100#32 : BitVec 32).toInt = 100 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h100, decide_eq_true_eq]
  omega

theorem clip_apply (x : S6x256x64.Idx → BitVec 32) (i : S6x256x64.Idx) (h : (x i).toNat < 101) : clip x i = x i :=
  clip_word (x i) h

set_option maxRecDepth 100000 in
/-- The subject's slot array the region finds is the clamp of the resolved slots, reshaped. -/
theorem V_subq_eq (c : Dev nD) :
    (V m c main_v31 : S1536x64.Idx → BitVec 32)
      = shapeCast S1536x64 (clip (V m c main_v29 : S6x256x64.Idx → BitVec 32)) Facts₀.shapeCasts_S6x256x64_S1536x64 := by
  unfold clip
  dsimp only [Gen.V, Gen.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  after_results_simp
  rfl

set_option maxRecDepth 100000 in
/-- The object's slot array the region finds is the clamp of the resolved slots, reshaped. -/
theorem V_objq_eq (c : Dev nD) :
    (V m c main_v37 : S1536x64.Idx → BitVec 32)
      = shapeCast S1536x64 (clip (V m c main_v35 : S6x256x64.Idx → BitVec 32)) Facts₀.shapeCasts_S6x256x64_S1536x64 := by
  unfold clip
  dsimp only [Gen.V, Gen.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  after_results_simp
  rfl

/-- The subject's slot array the region finds: where the resolved slot is a row, that slot. -/
theorem V_subq_at (c : Dev nD) (l : Fin 6) (b : Fin 256) (r : Fin 64) (h : (Qs m c (ix3 l b r)).toNat < 101) :
    (V m c main_v31 : S1536x64.Idx → BitVec 32) (ix2 (img l b) r) = Qs m c (ix3 l b r) := by
  refine (congrFun (V_subq_eq m c) _).trans ?_
  rewrite [V_q_sub]
  -- both indices sit at row-major position (l · 256 + b) · 64 + r
  refine (shapeCast_apply _ _ _ (ix3 l b r) ?_).trans (clip_apply _ _ h)
  rewrite [Shape.rowMajor_val_three, Shape.rowMajor_val_two]
  show (l.val * 256 + b.val) * 64 + r.val = (l.val * 256 + b.val) * 64 + r.val
  rfl

/-- The object's slot array the region finds. -/
theorem V_objq_at (c : Dev nD) (l : Fin 6) (b : Fin 256) (r : Fin 64) (h : (Qo m c (ix3 l b r)).toNat < 101) :
    (V m c main_v37 : S1536x64.Idx → BitVec 32) (ix2 (img l b) r) = Qo m c (ix3 l b r) := by
  refine (congrFun (V_objq_eq m c) _).trans ?_
  rewrite [V_q_obj]
  refine (shapeCast_apply _ _ _ (ix3 l b r) ?_).trans (clip_apply _ _ h)
  rewrite [Shape.rowMajor_val_three, Shape.rowMajor_val_two]
  show (l.val * 256 + b.val) * 64 + r.val = (l.val * 256 + b.val) * 64 + r.val
  rfl

/-- The first half of the weights. -/
theorem V_w1_at (c : Dev nD) (p : Fin 51) (d : Fin 256) :
    (V m c main_v39 : S51x256.Idx → EReal) (ix2 p d) = (m ((c.tc : Thread nD τ).loc main_arg4) : S51x512.Idx → EReal) (ix2 p (lo d)) := by
  refine (congrFun (V_w1_eq m c) _).trans ?_
  refine extractStridedSlice_apply _ _ _ _ (ix2 p (lo d)) fun a => ?_
  match a with
  | ⟨0, _⟩ => show p.val = 0 + p.val; omega
  | ⟨1, _⟩ => show d.val = 0 + d.val; omega

/-- The second half of the weights. -/
theorem V_w2_at (c : Dev nD) (p : Fin 51) (d : Fin 256) :
    (V m c main_v40 : S51x256.Idx → EReal) (ix2 p d) = (m ((c.tc : Thread nD τ).loc main_arg4) : S51x512.Idx → EReal) (ix2 p (hi d)) := by
  refine (congrFun (V_w2_eq m c) _).trans ?_
  refine extractStridedSlice_apply _ _ _ _ (ix2 p (hi d)) fun a => ?_
  match a with
  | ⟨0, _⟩ => show p.val = 0 + p.val; omega
  | ⟨1, _⟩ => show 256 + d.val = 256 + d.val; rfl

/-- The bias as a one-row array. -/
theorem V_bias_at (c : Dev nD) (p : Fin 51) :
    (V m c main_v41 : S1x51.Idx → EReal) (ix2 (0 : Fin 1) p) = (m ((c.tc : Thread nD τ).loc main_arg5) : S51.Idx → EReal) (ix1 p) := by
  refine (congrFun (V_bias_eq m c) _).trans ?_
  -- both indices sit at row-major position p
  refine shapeCast_apply _ _ _ (ix1 p) ?_
  rewrite [Shape.rowMajor_val_one, Shape.rowMajor_val_two]
  show p.val = 0 * 51 + p.val
  omega

end Cert.KernelIdeal.Hand

end
-- ==== Proof.KValue.lean ====
/-
  The kernel's result array.

  The output window's block at grid step `t` is rows `48 t … 48 t + 47` of the `[1536, 64, 51]` result, and each
  input window's block at that step is the same rows of its array (the weights and the bias are read whole at
  every step). So what step `t` writes back is block `t` of one whole-array function — the specification's
  formula in the flattened layout (`Cert.Spec.logitsFlat`) — once the stored entry (`payload_at`) is read
  through the blocks and through what the host lines before the region left in the arrays. The 32 blocks cover the
  result, so after the region it holds that function; the one host line after the region reshapes it to
  `[6, 256, 64, 51]`, row `l · 256 + b` becoming image `(l, b)`.

  All of this holds where every resolved query slot is a row of the slab (`hS`, `hO`): that is what makes the
  one-hot products gather and the clamp before the region do nothing.
-/
import proofs.«415238_j44624710205890_2_alg».proof.Proof.Gen.KernelIdeal.Frame
import proofs.«415238_j44624710205890_2_alg».proof.Proof.KPayload
import proofs.«415238_j44624710205890_2_alg».proof.Proof.KProlog
import proofs.«415238_j44624710205890_2_alg».proof.Proof.Rows
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec

variable (m : (ℓ : Loc nD τ sig) → Buf (Elt Ideal) ℓ) (ρ : Dev nD → PrngReg)

/-- The specification's logits in the flattened layout, at this memory's arguments. -/
abbrev flat (c : Dev nD) : S1536x64x51.Idx → EReal :=
  logitsFlat (m ((c.tc : Thread nD τ).loc main_arg0)) (m ((c.tc : Thread nD τ).loc main_arg4))
    (m ((c.tc : Thread nD τ).loc main_arg5)) (Qs m c) (Qo m c)

/-- The flattened specification at row `n`: the logit of the image that row is. -/
theorem flat_ix3 (c : Dev nD) (n : Fin 1536) (r : Fin 64) (p : Fin 51) :
    flat m c (ix3 n r p) = logitAt (m ((c.tc : Thread nD τ).loc main_arg0)) (m ((c.tc : Thread nD τ).loc main_arg4))
      (m ((c.tc : Thread nD τ).loc main_arg5)) (Qs m c) (Qo m c) (layerOf n) (imageOf n) r p := rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the three row-blocked windows sit at block `t` of their first axis, the
    three whole windows at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

theorem t_lt (t : Fin cfg0.N) : t.val < 32 := Nat.lt_of_lt_of_eq t.isLt (show cfg0.N = 32 from N_0)

/-- Row `bb` of step `t`'s block, as a row of the flattened axis. -/
def rowAt (t : Fin cfg0.N) (bb : Fin 48) : Fin 1536 := ⟨48 * t.val + bb.val, by have := t_lt t; have := bb.isLt; omega⟩

/-- The hidden-state window's block at step `t` is rows `48 t …` of the reshaped hidden states. -/
theorem iblk0_at (c : Dev nD) (t : Fin cfg0.N) (bb : Fin 48) (q : Fin 101) (d : Fin 256) :
    (iblk m c 0 t : S48x101x256.Idx → EReal) (ix3 bb q d) = (V m c main_v38 : S1536x101x256.Idx → EReal) (ix3 (rowAt t bb) q d) := by
  obtain ⟨e0, e1, e2, -⟩ := idx_facts t
  unfold iblk
  rw [View.read_apply]
  show V m c main_v38 _ = V m c main_v38 _
  refine congrArg (V m c main_v38) ?_
  funext a; apply Fin.ext
  match a with
  | ⟨0, _⟩ => show win0_0.index t (0 : Fin 3) * 48 + 1 * bb.val = 48 * t.val + bb.val; rw [e0]; omega
  | ⟨1, _⟩ => show win0_0.index t (1 : Fin 3) * 101 + 1 * q.val = q.val; rw [e1]; omega
  | ⟨2, _⟩ => show win0_0.index t (2 : Fin 3) * 256 + 1 * d.val = d.val; rw [e2]; omega

/-- The subject-slot window's block at step `t`. -/
theorem iblk1_at (c : Dev nD) (t : Fin cfg0.N) (bb : Fin 48) (r : Fin 64) :
    (iblk m c 1 t : S48x64.Idx → BitVec 32) (ix2 bb r) = (V m c main_v31 : S1536x64.Idx → BitVec 32) (ix2 (rowAt t bb) r) := by
  obtain ⟨-, -, -, e0, e1, -⟩ := idx_facts t
  unfold iblk
  rw [View.read_apply]
  show V m c main_v31 _ = V m c main_v31 _
  refine congrArg (V m c main_v31) ?_
  funext a; apply Fin.ext
  match a with
  | ⟨0, _⟩ => show win0_1.index t (0 : Fin 2) * 48 + 1 * bb.val = 48 * t.val + bb.val; rw [e0]; omega
  | ⟨1, _⟩ => show win0_1.index t (1 : Fin 2) * 64 + 1 * r.val = r.val; rw [e1]; omega

/-- The object-slot window's block at step `t`. -/
theorem iblk2_at (c : Dev nD) (t : Fin cfg0.N) (bb : Fin 48) (r : Fin 64) :
    (iblk m c 2 t : S48x64.Idx → BitVec 32) (ix2 bb r) = (V m c main_v37 : S1536x64.Idx → BitVec 32) (ix2 (rowAt t bb) r) := by
  obtain ⟨-, -, -, -, -, e0, e1, -⟩ := idx_facts t
  unfold iblk
  rw [View.read_apply]
  show V m c main_v37 _ = V m c main_v37 _
  refine congrArg (V m c main_v37) ?_
  funext a; apply Fin.ext
  match a with
  | ⟨0, _⟩ => show win0_2.index t (0 : Fin 2) * 48 + 1 * bb.val = 48 * t.val + bb.val; rw [e0]; omega
  | ⟨1, _⟩ => show win0_2.index t (1 : Fin 2) * 64 + 1 * r.val = r.val; rw [e1]; omega

/-- The first weight half is read whole at every step. -/
theorem iblk3_at (c : Dev nD) (t : Fin cfg0.N) (p : Fin 51) (d : Fin 256) :
    (iblk m c 3 t : S51x256.Idx → EReal) (ix2 p d) = (V m c main_v39 : S51x256.Idx → EReal) (ix2 p d) := by
  obtain ⟨-, -, -, -, -, -, -, e0, e1, -⟩ := idx_facts t
  unfold iblk
  rw [View.read_apply]
  show V m c main_v39 _ = V m c main_v39 _
  refine congrArg (V m c main_v39) ?_
  funext a; apply Fin.ext
  match a with
  | ⟨0, _⟩ => show win0_3.index t (0 : Fin 2) * 51 + 1 * p.val = p.val; rw [e0]; omega
  | ⟨1, _⟩ => show win0_3.index t (1 : Fin 2) * 256 + 1 * d.val = d.val; rw [e1]; omega

/-- The second weight half is read whole at every step. -/
theorem iblk4_at (c : Dev nD) (t : Fin cfg0.N) (p : Fin 51) (d : Fin 256) :
    (iblk m c 4 t : S51x256.Idx → EReal) (ix2 p d) = (V m c main_v40 : S51x256.Idx → EReal) (ix2 p d) := by
  obtain ⟨-, -, -, -, -, -, -, -, -, e0, e1, -⟩ := idx_facts t
  unfold iblk
  rw [View.read_apply]
  show V m c main_v40 _ = V m c main_v40 _
  refine congrArg (V m c main_v40) ?_
  funext a; apply Fin.ext
  match a with
  | ⟨0, _⟩ => show win0_4.index t (0 : Fin 2) * 51 + 1 * p.val = p.val; rw [e0]; omega
  | ⟨1, _⟩ => show win0_4.index t (1 : Fin 2) * 256 + 1 * d.val = d.val; rw [e1]; omega

/-- The bias row is read whole at every step. -/
theorem iblk5_at (c : Dev nD) (t : Fin cfg0.N) (p : Fin 51) :
    (iblk m c 5 t : S1x51.Idx → EReal) (ix2 (0 : Fin 1) p) = (V m c main_v41 : S1x51.Idx → EReal) (ix2 (0 : Fin 1) p) := by
  obtain ⟨-, -, -, -, -, -, -, -, -, -, -, e0, e1, -⟩ := idx_facts t
  unfold iblk
  rw [View.read_apply]
  show V m c main_v41 _ = V m c main_v41 _
  refine congrArg (V m c main_v41) ?_
  funext a; apply Fin.ext
  match a with
  | ⟨0, _⟩ => show win0_5.index t (0 : Fin 2) * 1 + 1 * (0 : Fin 1).val = (0 : Fin 1).val; rw [e0]; rfl
  | ⟨1, _⟩ => show win0_5.index t (1 : Fin 2) * 51 + 1 * p.val = p.val; rw [e1]; omega

/-- WHAT STEP `t` STORES, at row `bb`, relation `r`, class `p`: the specification's logit of the image that row is. -/
theorem stored_at (c : Dev nD) (hS : ∀ j, (Qs m c j).toNat < 101) (hO : ∀ j, (Qo m c j).toNat < 101)
    (t : Fin cfg0.N) (bb : Fin 48) (r : Fin 64) (p : Fin 51) :
    k0_pay1 (F := Ideal) (iblk m c 0 t) (iblk m c 1 t) (iblk m c 2 t) (iblk m c 3 t) (iblk m c 4 t) (iblk m c 5 t) (ix3 bb r p)
      = flat m c (ix3 (rowAt t bb) r p) := by
  -- the image this row is
  have hn := img_layerOf_imageOf (rowAt t bb)
  generalize layerOf (rowAt t bb) = l at hn
  generalize imageOf (rowAt t bb) = b at hn
  -- the two slot words the step reads are the resolved slots of that image
  have q1 : (iblk m c 1 t : S48x64.Idx → BitVec 32) (ix2 bb r) = Qs m c (ix3 l b r) := by
    rw [iblk1_at, ← hn]; exact V_subq_at m c l b r (hS _)
  have q2 : (iblk m c 2 t : S48x64.Idx → BitVec 32) (ix2 bb r) = Qo m c (ix3 l b r) := by
    rw [iblk2_at, ← hn]; exact V_objq_at m c l b r (hO _)
  refine (payload_at (iblk m c 0 t) (iblk m c 1 t) (iblk m c 2 t) (iblk m c 3 t) (iblk m c 4 t) (iblk m c 5 t) bb r p
    (by rw [q1]; exact hS _) (by rw [q2]; exact hO _)).trans ?_
  rw [q1, q2, flat_ix3, ← hn, layerOf_img, imageOf_img]
  unfold logitAt
  refine congrArg₂ (· + ·) (congrArg₂ (· + ·) (Finset.sum_congr rfl fun d _ => ?_) (Finset.sum_congr rfl fun d _ => ?_)) ?_
  · rw [iblk0_at, iblk3_at, ← hn, V_hs_at, V_w1_at]
  · rw [iblk0_at, iblk4_at, ← hn, V_hs_at, V_w2_at]
  · rw [iblk5_at, V_bias_at]

/-- WHAT STEP `t` WRITES BACK is block `t` of the flattened specification. -/
theorem flushed_eq (c : Dev nD) (hS : ∀ j, (Qs m c j).toNat < 101) (hO : ∀ j, (Qo m c j).toNat < 101) (t : Fin cfg0.N) :
    (dats m 0 c).flushed 6 t = ((cfg0.win 6).blk t).view.read (Elt Ideal) (flat m c) := by
  show (cfg0.win 6).cut (grid0.coords t) ((dats m 0 c).after 6 t) = _
  rw [after0_6]
  unfold out0_6
  rw [View.canon_unit_zero hz3]
  simp only [View.ld_unit_zero (S := S48x101x256) hz3, View.ld_unit_zero (S := S48x64) hz2, View.ld_unit_zero (S := S51x256) hz2,
    View.ld_unit_zero (S := S1x51) hz2]
  obtain ⟨-, -, -, -, -, -, -, -, -, -, -, -, -, e0, e1, e2⟩ := idx_facts t
  refine funext fun (j : S48x64x51.Idx) => ?_
  obtain ⟨bb, r, p, rfl⟩ : ∃ (bb : Fin 48) (r : Fin 64) (p : Fin 51), j = ix3 bb r p := ⟨j 0, j 1, j 2, eq_ix3 j⟩
  show k0_pay1 (F := Ideal) (iblk m c 0 t) (iblk m c 1 t) (iblk m c 2 t) (iblk m c 3 t) (iblk m c 4 t) (iblk m c 5 t) (ix3 bb r p)
    = flat m c (((cfg0.win 6).blk t).view.emb (ix3 bb r p))
  have he : ((cfg0.win 6).blk t).view.emb (ix3 bb r p) = (ix3 (rowAt t bb) r p : S1536x64x51.Idx) := by
    funext a; apply Fin.ext
    match a with
    | ⟨0, _⟩ => show win0_6.index t (0 : Fin 3) * 48 + 1 * bb.val = 48 * t.val + bb.val; rw [e0]; omega
    | ⟨1, _⟩ => show win0_6.index t (1 : Fin 3) * 64 + 1 * r.val = r.val; rw [e1]; omega
    | ⟨2, _⟩ => show win0_6.index t (2 : Fin 3) * 51 + 1 * p.val = p.val; rw [e2]; omega
  rw [he]
  exact stored_at m c hS hO t bb r p

/-- An index of the result is in step `t`'s block iff its row is one of rows `48 t … 48 t + 47`. -/
theorem mem_blk (t : Fin cfg0.N) (i : S1536x64x51.Idx) :
    i ∈ ((cfg0.win 6).blk t).view.set ↔ ∀ a : Fin 3, win0_6.index t a * S48x64x51.size a ≤ (i a).val ∧ (i a).val < win0_6.index t a * S48x64x51.size a + S48x64x51.size a := by
  show i ∈ ((View.whole main_v42).slice (win0_6.rect t)).set ↔ _
  rw [View.set_slice_whole, Rect.mem_set_unit]
  exact Iff.rfl

/-- THE RESULT ARRAY after the region: the 32 blocks cover it, so it holds the flattened specification. -/
theorem final_out (c : Dev nD) (hS : ∀ j, (Qs m c j).toNat < 101) (hO : ∀ j, (Qo m c j).toNat < 101) :
    (dats m 0 c).arrAt 6 cfg0.N = flat m c :=
  (dats m 0 c).arrAt_eq_of_cover 6 (flat m c) (fun t _ => flushed_eq m c hS hO t) fun (i : S1536x64x51.Idx) => by
    have hi0 : (i 0).val < 1536 := (i 0).isLt
    have hi1 : (i 1).val < 64 := (i 1).isLt
    have hi2 : (i 2).val < 51 := (i 2).isLt
    let t : Fin cfg0.N := ⟨(i 0).val / 48, by rw [show cfg0.N = 32 from N_0]; omega⟩
    obtain ⟨-, -, -, -, -, -, -, -, -, -, -, -, -, e0, e1, e2⟩ := idx_facts t
    refine ⟨t, flush0_6 t, ?_⟩
    rw [mem_blk]
    intro a
    match a with
    | ⟨0, _⟩ => show win0_6.index t (0 : Fin 3) * 48 ≤ (i 0).val ∧ (i 0).val < win0_6.index t (0 : Fin 3) * 48 + 48
                rw [e0]; show (i 0).val / 48 * 48 ≤ (i 0).val ∧ (i 0).val < (i 0).val / 48 * 48 + 48; omega
    | ⟨1, _⟩ => show win0_6.index t (1 : Fin 3) * 64 ≤ (i 1).val ∧ (i 1).val < win0_6.index t (1 : Fin 3) * 64 + 64
                rw [e1]; omega
    | ⟨2, _⟩ => show win0_6.index t (2 : Fin 3) * 51 ≤ (i 2).val ∧ (i 2).val < win0_6.index t (2 : Fin 3) * 51 + 51
                rw [e2]; omega

/-- The logits at this memory's arguments. -/
abbrev out (c : Dev nD) : S6x256x64x51.Idx → EReal :=
  logits (m ((c.tc : Thread nD τ).loc main_arg0)) (m ((c.tc : Thread nD τ).loc main_arg4))
    (m ((c.tc : Thread nD τ).loc main_arg5)) (Qs m c) (Qo m c)

/-- The reshape after the region: row `l · 256 + b` of the flattened logits is image `(l, b)`'s. -/
theorem reshape_flat (c : Dev nD) :
    shapeCast S6x256x64x51 (flat m c) shapeCasts_S1536x64x51_S6x256x64x51 = out m c := by
  funext i
  obtain ⟨l, b, r, p, rfl⟩ : ∃ (l : Fin 6) (b : Fin 256) (r : Fin 64) (p : Fin 51), i = ix4 l b r p := ⟨i 0, i 1, i 2, i 3, eq_ix4 i⟩
  refine (shapeCast_apply (flat m c) shapeCasts_S1536x64x51_S6x256x64x51 (ix4 l b r p) (ix3 (img l b) r p) ?_).trans ?_
  · rw [Shape.rowMajor_val_three, Shape.rowMajor_val_four]
    show ((l.val * 256 + b.val) * 64 + r.val) * 51 + p.val = ((l.val * 256 + b.val) * 64 + r.val) * 51 + p.val
    rfl
  · rw [flat_ix3, layerOf_img, imageOf_img]; rfl

/-- What @main's result buffer holds after the host line that follows the region. -/
theorem tail_out (c : Dev nD) (hS : ∀ j, (Qs m c j).toNat < 101) (hO : ∀ j, (Qo m c j).toNat < 101) :
    Pipeline.afterTail₀ cfgs (dats m) 0 (V0 m) [hostOps1] c main_v43 = out m c := by
  unfold Pipeline.afterTail₀
  show StableHlo.after hostOps1 _ (Proc.devRef .tc main_v43) = _
  unfold hostOps1
  after_results
  have hA : Pipeline.withArrays spec0 c (V0 m c) (fun w => (dats m 0 c).arrAt w cfg0.N) (Proc.devRef .tc main_v42) = flat m c :=
    (Pipeline.withArrays_arr spec0 launch0.win.arr_inj c _ _ 6).trans (final_out m c hS hO)
  rw [hA]
  exact reshape_flat m c

/-- THE KERNEL'S RUN, read: where every resolved slot is a row, @main ends with the logits in its result buffer and
    its arguments as launched. -/
theorem kernel_run (hS : ∀ c j, (Qs m c j).toNat < 101) (hO : ∀ c j, (Qo m c j).toNat < 101) :
    θ_run defs (onTc (τ := τ) (main (F := Ideal))) ⟨m, fun _ => 0, ρ⟩ fun r => ∀ c : Dev nD,
      r.2.mem ((c.tc : Thread nD τ).loc main_v43) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨((h c).2 main_v43 (Pipeline.mem_restRefs_of main_v43 (by decide) (by decide))).trans (tail_out m c (hS c) (hO c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c),
       ((h c).2 main_arg5 (Pipeline.mem_restRefs_of main_arg5 (by decide) (by decide))).trans (W_main_arg5 m (dats m) c)⟩)
    (run_main m ρ)

end Cert.KernelIdeal.Hand

end
-- ==== Proof.lean ====
/-
  The predicate-classifier head: the Pallas kernel against its jnp reference, over the extended reals.

  Both programs resolve, for each decoder layer `l`, image `b` and relation `r`, the query slots matched to the
  relation's subject and object — the same scatter (the inverse of the target permutation) and the same two
  look-ups on both sides — and score the pair of hidden-state rows those slots name against the classifier:

    logit[l, b, r, p] = ∑_d hs[l, b, q_s, d] · W[p, d] + ∑_d hs[l, b, q_o, d] · W[p, 256 + d] + bias[p]

  (`Cert.Spec.logitAt`). The reference gathers the rows with a look-up that yields a fill value out of range and
  wraps a negative index, joins them to 512 features and contracts once; the kernel clamps the slots into
  `[0, 100]`, gathers by a one-hot product, and applies the two halves of `W` separately. The two agree exactly
  where every resolved slot is a row of the 101-row slab, and that is what the precondition's two index-range
  conjuncts give (`src_indices` in `[0, 101)`, `relationships` in `[0, 64)`): the scattered table only ever holds
  values below 64, so the first look-up is in range and returns a position of the match list, and the second then
  returns an entry of `src_indices` (`Cert.Hand.qs_range`, `qo_range`). Nothing needs a finite input: a one-hot
  sum keeps its one term and a joined sum splits at the join over any extended reals.

  The three frames: the two kernel programs' are the generated frame certificates; the reference, a straight line
  of host operations, runs by the library's straight-line theorem (`Cert.ReferenceIdeal.RunP.run`), whose post
  holds the arguments unchanged. The ideal pass rewrote nothing, so `preserves` asks nothing.
-/
import proofs.«415238_j44624710205890_2_alg».proof.Defs
import proofs.«415238_j44624710205890_2_alg».proof.Proof.Gen.Kernel
import proofs.«415238_j44624710205890_2_alg».proof.Proof.Gen.Kernel.Skeleton
import proofs.«415238_j44624710205890_2_alg».proof.Proof.Gen.Kernel.Launch
import proofs.«415238_j44624710205890_2_alg».proof.Proof.Gen.Kernel.Points
import proofs.«415238_j44624710205890_2_alg».proof.Proof.Gen.Kernel.Frame
import proofs.«415238_j44624710205890_2_alg».proof.Proof.Gen.KernelIdeal
import proofs.«415238_j44624710205890_2_alg».proof.Proof.Gen.KernelIdeal.Skeleton
import proofs.«415238_j44624710205890_2_alg».proof.Proof.Gen.KernelIdeal.Launch
import proofs.«415238_j44624710205890_2_alg».proof.Proof.Gen.KernelIdeal.Points
import proofs.«415238_j44624710205890_2_alg».proof.Proof.Gen.KernelIdeal.Frame
import proofs.«415238_j44624710205890_2_alg».proof.Proof.Gen.ReferenceIdeal
import proofs.«415238_j44624710205890_2_alg».proof.Proof.Gen.Pre_finite_inputs
import proofs.«415238_j44624710205890_2_alg».proof.Proof.RefRun
import proofs.«415238_j44624710205890_2_alg».proof.Proof.RefValue
import proofs.«415238_j44624710205890_2_alg».proof.Proof.IndexFacts
import proofs.«415238_j44624710205890_2_alg».proof.Proof.PreFacts
import proofs.«415238_j44624710205890_2_alg».proof.Proof.KValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a straight line of host operations: it runs, and its run's post keeps the arguments. -/
theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Under the precondition both programs end with the specification's logits of the shared arguments. -/
theorem algebraic : Cert.algebraic_KernelIdeal_ReferenceIdeal := by
  intro m ρ m' ρ' hpre hagree
  -- the index ranges the precondition states, then the resolved slots' range
  have hr : ∀ c : Dev Cert.KernelIdeal.nD,
      (∀ j, ((m ((c.tc : Thread Cert.KernelIdeal.nD Cert.KernelIdeal.τ).loc Cert.KernelIdeal.main_arg1) : Cert.Spec.SQ.Idx → BitVec 32) j).toNat < 101)
      ∧ (∀ j, ((m ((c.tc : Thread Cert.KernelIdeal.nD Cert.KernelIdeal.τ).loc Cert.KernelIdeal.main_arg3) : Cert.Pre_finite_inputs.S256x64x2.Idx → BitVec 32) j).toNat < 64) :=
    fun c => Cert.Hand.ranges_of_pre (F := Ideal) _ _ _ _ _ _ (hpre c)
  have hS : ∀ c j, (Cert.KernelIdeal.Hand.Qs m c j).toNat < 101 := fun c => Cert.Hand.qs_range (F := Ideal) _ _ _ (hr c).1 (hr c).2
  have hO : ∀ c j, (Cert.KernelIdeal.Hand.Qo m c j).toNat < 101 := fun c => Cert.Hand.qo_range (F := Ideal) _ _ _ (hr c).1 (hr c).2
  refine ⟨fun c => Cert.KernelIdeal.Hand.out m c, Cert.KernelIdeal.Hand.kernel_run m ρ hS hO, ?_⟩
  refine (θ_run Cert.ReferenceIdeal.defs _ _).mono (fun _ h c => ⟨(h c).1.trans ?_, (h c).2⟩)
    (Cert.ReferenceIdeal.RunP.run (F := Ideal) m' ρ')
  unfold Cert.ReferenceIdeal.RunP.res_main_v42
  obtain ⟨a0, a1, a2, a3, a4, a5⟩ := hagree c
  rw [a0, a1, a2, a3, a4, a5]
  exact Cert.Hand.ref_value _ _ _ _ _ _ (hS c) (hO c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
